-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x512 .f32) (main_arg1 : IVec S800000 32) (main_arg2 : IVec S800000 32) (main_arg3 : FVec F S512x256 .f32) (main_arg4 : FVec F S256 .f32) (main_arg5 : FVec F S256x40 .f32) (main_arg6 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x40 .f32 := Host.absf main_arg5
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg6 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S1000x512 : Shape := ⟨2, ![1000, 512]⟩
abbrev S1000x1 : Shape := ⟨2, ![1000, 1]⟩
abbrev S1000x256 : Shape := ⟨2, ![1000, 256]⟩
abbrev S800000x256 : Shape := ⟨2, ![800000, 256]⟩
abbrev S1x256 : Shape := ⟨2, ![1, 256]⟩
abbrev S50000x40 : Shape := ⟨2, ![50000, 40]⟩
abbrev S1000x40 : Shape := ⟨2, ![1000, 40]⟩
abbrev S800000x40 : Shape := ⟨2, ![800000, 40]⟩
abbrev S1x40 : Shape := ⟨2, ![1, 40]⟩
abbrev S1000 : Shape := ⟨1, ![1000]⟩

abbrev nBuf : Space → Nat
  | .hbm => 75
  | .vmem => 28
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S512x256, .f32⟩
  | .hbm, ⟨4, _⟩ => ⟨S256, .f32⟩
  | .hbm, ⟨5, _⟩ => ⟨S256x40, .f32⟩
  | .hbm, ⟨6, _⟩ => ⟨S40, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S50000x1, .f32⟩
  | .hbm, ⟨55, _⟩ => ⟨S1x256, .f32⟩
  | .hbm, ⟨56, _⟩ => ⟨S50000x256, .f32⟩
  | .hbm, ⟨57, _⟩ => ⟨S50000x1, .f32⟩
  | .hbm, ⟨58, _⟩ => ⟨S50000x40, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x40, .f32⟩
  | .hbm, ⟨68, _⟩ => ⟨S_, .f32⟩
  | .hbm, ⟨69, _⟩ => ⟨S50000x40, .f32⟩
  | .hbm, ⟨70, _⟩ => ⟨S800000x1, .i32⟩
  | .hbm, ⟨71, _⟩ => ⟨S50000x40, .f32⟩
  | .hbm, ⟨72, _⟩ => ⟨S50000x1, .f32⟩
  | .hbm, ⟨73, _⟩ => ⟨S1x40, .f32⟩
  | .hbm, ⟨74, _⟩ => ⟨S50000x40, .f32⟩
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S1000x1, .f32⟩
  | .local _ .vmem, ⟨4, _⟩ => ⟨S1000x1, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x1, .f32⟩
  | .local _ .vmem, ⟨10, _⟩ => ⟨S1000x1, .f32⟩
  | .local _ .vmem, ⟨11, _⟩ => ⟨S1x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S256x40, .f32⟩
  | .local _ .vmem, ⟨17, _⟩ => ⟨S1000x1, .f32⟩
  | .local _ .vmem, ⟨18, _⟩ => ⟨S1000x1, .f32⟩
  | .local _ .vmem, ⟨19, _⟩ => ⟨S1000x40, .f32⟩
  | .local _ .vmem, ⟨20, _⟩ => ⟨S1000x40, .f32⟩
  | .local _ .vmem, ⟨21, _⟩ => ⟨S1000x40, .f32⟩
  | .local _ .vmem, ⟨22, _⟩ => ⟨S1000x40, .f32⟩
  | .local _ .vmem, ⟨23, _⟩ => ⟨S1000x1, .f32⟩
  | .local _ .vmem, ⟨24, _⟩ => ⟨S1000x1, .f32⟩
  | .local _ .vmem, ⟨25, _⟩ => ⟨S1x40, .f32⟩
  | .local _ .vmem, ⟨26, _⟩ => ⟨S1000x40, .f32⟩
  | .local _ .vmem, ⟨27, _⟩ => ⟨S1000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_c_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_12 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  bcast_S_S50000x256 : S_.BroadcastsInDim S50000x256 (![] : Fin 0 → Fin S50000x256.rank)
  shapeCasts_S256_S1x256 : S256.ShapeCasts S1x256
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x40_S256x40_0_0 : ∀ a, (![0, 0] : Fin 2 → Nat) a + S256x40.size a ≤ S256x40.size a
  h_S256x40 : 0 < S256x40.numel
  broadcasts_S1000x1_S1000x40 : S1000x1.Broadcasts S1000x40
  inb_S1000x40_S1000x40_0_0 : ∀ a, (![0, 0] : Fin 2 → Nat) a + S1000x40.size a ≤ S1000x40.size a
  h_S1000x40 : 0 < S1000x40.numel
  bcast_S_S50000x40 : S_.BroadcastsInDim S50000x40 (![] : Fin 0 → Fin S50000x40.rank)
  shapeCasts_S40_S1x40 : S40.ShapeCasts S1x40
  shapeCasts_S1000x40_S1000x40 : S1000x40.ShapeCasts S1000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1000x40 : S1x40.Broadcasts S1000x40
  reduces_S1000x40_S1000 : S1000x40.Reduces [1] S1000
  shapeCasts_S1000_S1000x1 : S1000.ShapeCasts S1000x1
  scatter_S50000_S800000x1_S800000_n_0_0_1_wf : ScatterDims.WF S50000 S800000x1 S800000 [] [0] [0] 1
  dot_S1000x512_S512x256_S1000x256_1_0_0_1_n_n_wf : DotDims.WF S1000x512 S512x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x40_S1000x40_1_0_0_1_n_n_wf : DotDims.WF S1000x256 S256x40 S1000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S50000x256.size a
  hwx0_3 : ∀ i : grid0.Coords, EltTy.bits .f32 = 32 ∨ (Rect.block (s := S50000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S50000x1.size a
  hwx1_1 : ∀ i : grid1.Coords, EltTy.bits .f32 = 32 ∨ (Rect.block (s := S50000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x40.size a ≤ S256x40.size a
  hwx2_1 : ∀ i : grid2.Coords, EltTy.bits .f32 = 32 ∨ (Rect.block (s := S256x40) S256x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S50000x1.size a
  hwx2_2 : ∀ i : grid2.Coords, EltTy.bits .f32 = 32 ∨ (Rect.block (s := S50000x1) S1000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x40.size a ≤ S50000x40.size a
  hwx2_3 : ∀ i : grid2.Coords, EltTy.bits .f32 = 32 ∨ (Rect.block (s := S50000x40) S1000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x40.size a ≤ S50000x40.size a
  hwx3_0 : ∀ i : grid3.Coords, EltTy.bits .f32 = 32 ∨ (Rect.block (s := S50000x40) S1000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S50000x1.size a
  hwx3_1 : ∀ i : grid3.Coords, EltTy.bits .f32 = 32 ∨ (Rect.block (s := S50000x1) S1000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x40.size a ≤ S50000x40.size a
  hwx3_3 : ∀ i : grid3.Coords, EltTy.bits .f32 = 32 ∨ (Rect.block (s := S50000x40) S1000x40.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x40_S1000x40_1_0_0_1_n_n : DotDims S1000x256 S256x40 S1000x40 where
  lhsContracting := [1]
  rhsContracting := [0]
  lhsNonContracting := [0]
  rhsNonContracting := [1]
  lhsBatch := []
  rhsBatch := []
  wf := dot_S1000x256_S256x40_S1000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S1000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S50000x1 : Shape := ⟨2, ![50000, 1]⟩
abbrev S800000x256 : Shape := ⟨2, ![800000, 256]⟩
abbrev S1x256 : Shape := ⟨2, ![1, 256]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 138
  | .vmem => 0
  | .smem => 0
  | _ => 0

abbrev hbmTy0_0 (i : Nat) : BufTy := match i % 128 with
  | 0 => ⟨S50000x512, .f32⟩
  | 1 => ⟨S800000, .i32⟩
  | 2 => ⟨S800000, .i32⟩
  | 3 => ⟨S512x256, .f32⟩
  | 4 => ⟨S256, .f32⟩
  | 5 => ⟨S256x40, .f32⟩
  | 6 => ⟨S40, .f32⟩
  | 7 => ⟨S_, .f32⟩
  | 8 => ⟨S800000, .f32⟩
  | 9 => ⟨S_, .f32⟩
  | 10 => ⟨S50000, .f32⟩
  | 11 => ⟨S800000x1, .i32⟩
  | 12 => ⟨S50000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .i1⟩
  | 20 => ⟨S_, .f32⟩
  | 21 => ⟨S50000, .f32⟩
  | 22 => ⟨S50000, .f32⟩
  | 23 => ⟨S50000, .f32⟩
  | 24 => ⟨S_, .f32⟩
  | 25 => ⟨S_, .f32⟩
  | 26 => ⟨S50000, .f32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S50000x256, .f32⟩
  | 40 => ⟨S50000x1, .f32⟩
  | 41 => ⟨S50000x256, .f32⟩
  | 42 => ⟨S50000x256, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x256, .f32⟩
  | 52 => ⟨S_, .f32⟩
  | 53 => ⟨S50000x256, .f32⟩
  | 54 => ⟨S800000x1, .i32⟩
  | 55 => ⟨S50000x256, .f32⟩
  | 56 => ⟨S50000x1, .f32⟩
  | 57 => ⟨S50000x256, .f32⟩
  | 58 => ⟨S50000x256, .f32⟩
  | 59 => ⟨S1x256, .f32⟩
  | 60 => ⟨S50000x256, .f32⟩
  | 61 => ⟨S50000x256, .f32⟩
  | 62 => ⟨S_, .f32⟩
  | 63 => ⟨S50000x256, .f32⟩
  | 64 => ⟨S50000x256, .f32⟩
  | 65 => ⟨S_, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .i1⟩
  | 78 => ⟨S_, .f32⟩
  | 79 => ⟨S50000, .f32⟩
  | 80 => ⟨S50000, .f32⟩
  | 81 => ⟨S50000, .f32⟩
  | 82 => ⟨S_, .f32⟩
  | 83 => ⟨S_, .f32⟩
  | 84 => ⟨S50000, .f32⟩
  | 85 => ⟨S50000, .f32⟩
  | 86 => ⟨S_, .f32⟩
  | 87 => ⟨S50000, .f32⟩
  | 88 => ⟨S50000, .i1⟩
  | 89 => ⟨S_, .f32⟩
  | 90 => ⟨S50000, .f32⟩
  | 91 => ⟨S50000, .f32⟩
  | 92 => ⟨S50000, .f32⟩
  | 93 => ⟨S_, .f32⟩
  | 94 => ⟨S_, .f32⟩
  | 95 => ⟨S50000, .f32⟩
  | 96 => ⟨S50000, .f32⟩
  | 97 => ⟨S50000x40, .f32⟩
  | 98 => ⟨S50000x1, .f32⟩
  | 99 => ⟨S50000x40, .f32⟩
  | 100 => ⟨S50000x40, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x40, .f32⟩
  | 110 => ⟨S_, .f32⟩
  | 111 => ⟨S50000x40, .f32⟩
  | 112 => ⟨S800000x1, .i32⟩
  | 113 => ⟨S50000x40, .f32⟩
  | 114 => ⟨S50000x1, .f32⟩
  | 115 => ⟨S50000x40, .f32⟩
  | 116 => ⟨S50000x40, .f32⟩
  | 117 => ⟨S1x40, .f32⟩
  | 118 => ⟨S50000x40, .f32⟩
  | 119 => ⟨S50000x40, .f32⟩
  | 120 => ⟨S_, .f32⟩
  | 121 => ⟨S50000x40, .f32⟩
  | 122 => ⟨S50000x40, .f32⟩
  | 123 => ⟨S_, .f32⟩
  | 124 => ⟨S50000, .f32⟩
  | 125 => ⟨S_, .f32⟩
  | 126 => ⟨S50000, .f32⟩
  | 127 => ⟨S50000, .f32⟩
  | _ => ⟨S50000x512, .f32⟩

abbrev hbmTy0_1 (i : Nat) : BufTy := match i % 128 with
  | 0 => ⟨S50000x1, .f32⟩
  | 1 => ⟨S50000x40, .f32⟩
  | 2 => ⟨S50000x40, .f32⟩
  | 3 => ⟨S50000x40, .f32⟩
  | 4 => ⟨S_, .f32⟩
  | 5 => ⟨S50000, .f32⟩
  | 6 => ⟨S50000x1, .f32⟩
  | 7 => ⟨S50000x1, .f32⟩
  | 8 => ⟨S50000x40, .f32⟩
  | 9 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_cst_10 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_cst_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_15 : Ref sig .tc := ⟨.hbm, 82, rfl⟩
abbrev main_call3_v0 : Ref sig .tc := ⟨.hbm, 83, rfl⟩
abbrev main_call3_v1 : Ref sig .tc := ⟨.hbm, 84, rfl⟩
abbrev main_v52 : Ref sig .tc := ⟨.hbm, 85, rfl⟩
abbrev main_cst_16 : Ref sig .tc := ⟨.hbm, 86, rfl⟩
abbrev main_v53 : Ref sig .tc := ⟨.hbm, 87, rfl⟩
abbrev main_v54 : Ref sig .tc := ⟨.hbm, 88, rfl⟩
abbrev main_cst_17 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_18 : Ref sig .tc := ⟨.hbm, 93, rfl⟩
abbrev main_call4_v0 : Ref sig .tc := ⟨.hbm, 94, rfl⟩
abbrev main_call4_v1 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_19 : Ref sig .tc := ⟨.hbm, 101, rfl⟩
abbrev main_v63 : Ref sig .tc := ⟨.hbm, 102, rfl⟩
abbrev main_v64 : Ref sig .tc := ⟨.hbm, 103, rfl⟩
abbrev main_c_20 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_21 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_call5_cst : Ref sig .tc := ⟨.hbm, 120, rfl⟩
abbrev main_call5_v0 : Ref sig .tc := ⟨.hbm, 121, rfl⟩
abbrev main_v79 : Ref sig .tc := ⟨.hbm, 122, rfl⟩
abbrev main_call6_cst : Ref sig .tc := ⟨.hbm, 123, rfl⟩
abbrev main_call6_v0 : Ref sig .tc := ⟨.hbm, 124, rfl⟩
abbrev main_call6_cst_0 : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_call6_v5 : Ref sig .tc := ⟨.hbm, 130, rfl⟩
abbrev main_call6_v6 : Ref sig .tc := ⟨.hbm, 131, rfl⟩
abbrev main_call6_cst_1 : Ref sig .tc := ⟨.hbm, 132, rfl⟩
abbrev main_call6_v7 : Ref sig .tc := ⟨.hbm, 133, rfl⟩
abbrev main_call6_v8 : Ref sig .tc := ⟨.hbm, 134, rfl⟩
abbrev main_call6_v9 : Ref sig .tc := ⟨.hbm, 135, rfl⟩
abbrev main_call6_v10 : Ref sig .tc := ⟨.hbm, 136, rfl⟩
abbrev main_v80 : Ref sig .tc := ⟨.hbm, 137, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000x1_S50000x40_0_1 : S50000x1.BroadcastsInDim S50000x40 (![0, 1] : Fin 2 → Fin S50000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  scatter_S50000_S800000x1_S800000_n_0_0_1_wf : ScatterDims.WF S50000 S800000x1 S800000 [] [0] [0] 1
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x40_S50000x40_1_0_0_1_n_n_wf : DotDims.WF S50000x256 S256x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.LibTypedRef.lean ====
import Idealize.ShloMosaic.Lib.StableHlo

/-! # A typed reference's two casts cancel

A host operation inside a module-local function is printed over typed references: it takes its operands' contents
from their buffers' types to the values' types (`TRef.ofBuf`) and its result back (`TRef.toBuf`). When one such
operation reads what another wrote, the two casts meet, and they cancel whatever the reference is: by cases on the
reference, whose type equation is then `rfl`. Rewriting with this fact removes the casts pair by pair without
comparing any types, where rewriting each cast away by itself must first see that its two types coincide. -/

namespace Cert.TypedRef

open Idealize.ShloMosaic Idealize.ShloMosaic.StableHlo

variable {sig : RefSig} {Val : EltTy → Type} {T : BufTy}

/-- Contents taken to a typed reference's buffer and back are the contents. -/
theorem ofBuf_toBuf (x : TRef sig T) (v : T.Contents Val) : x.ofBuf (x.toBuf v) = v := by
  obtain ⟨r, h, hd, hu⟩ := x
  subst h
  rfl

/-- Contents of a typed reference's buffer taken to the value's type and back are the contents. -/
theorem toBuf_ofBuf (x : TRef sig T) (v : x.ref.ty.Contents Val) : x.toBuf (x.ofBuf v) = v := by
  obtain ⟨r, h, hd, hu⟩ := x
  subst h
  rfl

end Cert.TypedRef
-- ==== Proof.RefStages.lean ====
import proofs.«125506_j15659450761582_1_alg».proof.Proof.RefRun
import proofs.«125506_j15659450761582_1_alg».proof.Proof.LibTypedRef
import Idealize.ShloMosaic.Lib.StableHlo.Run
import Idealize.ShloMosaic.Lib.Pipeline.Frame

noncomputable section

/-! # The reference's run, read in eight stretches

The reference is a straight line of 131 host operations. It is cut into eight stretches: the two degree factors; the first layer's scaled product; its gather and
scatter-add; its incoming scale, bias and rectifier; the degree factors once more; and the same three steps for the
second layer, the last ending in the log-softmax. The buffer contents after each stretch are named (`R1` … `R8`), each the
stretch's operations applied to the contents before it, so that a stretch is read only against the few buffers of the
level before that it uses; the argument arrays are never written, so every level still holds them as launched. -/

namespace Cert.ReferenceIdeal.Stages

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Operations 1 … 32: the two degree factors. -/
abbrev opsDeg : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg1 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg2 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x00000000#32),
    unary main_cst_2 main_v7 (broadcastInDim S50000 ![] bcast_S_S50000 : (⟨S_, .f32⟩ : BufTy).Contents (Elt F) → (⟨S50000, .f32⟩ : BufTy).Contents (Elt F)),
    binary main_v3 main_v7 main_v8 (cmpf .ogt : (⟨S50000, .f32⟩ : BufTy).Contents (Elt F) → (⟨S50000, .f32⟩ : BufTy).Contents (Elt F) → (⟨S50000, .i1⟩ : BufTy).Contents (Elt F)),
    nullary main_cst_3 (constant S_ .f32 0x3F800000#32),
    unary main_cst_3 main_v9 (broadcastInDim S50000 ![] bcast_S_S50000 : (⟨S_, .f32⟩ : BufTy).Contents (Elt F) → (⟨S50000, .f32⟩ : BufTy).Contents (Elt F)),
    binary main_v3 main_v9 main_v10 (maximumf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v8) (TRef.of (T := ⟨S50000, .f32⟩) main_v11) (TRef.of (T := ⟨S50000, .f32⟩) main_call0_v1) (TRef.of (T := ⟨S50000, .f32⟩) main_v12) select,
    nullary main_cst_5 (constant S_ .f32 0x00000000#32),
    unary main_cst_5 main_v13 (broadcastInDim S50000 ![] bcast_S_S50000 : (⟨S_, .f32⟩ : BufTy).Contents (Elt F) → (⟨S50000, .f32⟩ : BufTy).Contents (Elt F)),
    binary main_v6 main_v13 main_v14 (cmpf .ogt : (⟨S50000, .f32⟩ : BufTy).Contents (Elt F) → (⟨S50000, .f32⟩ : BufTy).Contents (Elt F) → (⟨S50000, .i1⟩ : BufTy).Contents (Elt F)),
    nullary main_cst_6 (constant S_ .f32 0x3F800000#32),
    unary main_cst_6 main_v15 (broadcastInDim S50000 ![] bcast_S_S50000 : (⟨S_, .f32⟩ : BufTy).Contents (Elt F) → (⟨S50000, .f32⟩ : BufTy).Contents (Elt F)),
    binary main_v6 main_v15 main_v16 (maximumf : (⟨S50000, .f32⟩ : BufTy).Contents (Elt F) → (⟨S50000, .f32⟩ : BufTy).Contents (Elt F) → (⟨S50000, .f32⟩ : BufTy).Contents (Elt F)),
    unary main_v16 main_v17 (Host.rsqrt : (⟨S50000, .f32⟩ : BufTy).Contents (Elt F) → (⟨S50000, .f32⟩ : BufTy).Contents (Elt F)),
    nullary main_cst_7 (constant S_ .f32 0x00000000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v14) (TRef.of (T := ⟨S50000, .f32⟩) main_v17) (TRef.of (T := ⟨S50000, .f32⟩) main_call1_v1) (TRef.of (T := ⟨S50000, .f32⟩) main_v18) select ]

/-- Operations 33 … 36: the first layer's product with its weights, scaled by the outgoing-degree factor. -/
abbrev opsDot1 : List (HloOp τ sig (Elt F)) :=
  [ binary main_arg0 main_arg3 main_v19 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_v12 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x256 ![0, 1] bcast_S50000x1_S50000x256_0_1 : (⟨S50000x1, .f32⟩ : BufTy).Contents (Elt F) → (⟨S50000x256, .f32⟩ : BufTy).Contents (Elt F)),
    binary main_v19 main_v21 main_v22 (mulf : (⟨S50000x256, .f32⟩ : BufTy).Contents (Elt F) → (⟨S50000x256, .f32⟩ : BufTy).Contents (Elt F) → (⟨S50000x256, .f32⟩ : BufTy).Contents (Elt F)) ]

/-- Operations 37 … 49: the first layer's gather along the edges' sources and scatter-add into their destinations. -/
abbrev opsAgg1 : List (HloOp τ sig (Elt F)) :=
  [ nullary main_c (constantI S_ 32 0#32),
    unary main_c main_v23 (broadcastInDim S800000 ![] bcast_S_S800000 : (⟨S_, .i32⟩ : BufTy).Contents (Elt F) → (⟨S800000, .i32⟩ : BufTy).Contents (Elt F)),
    binary main_arg1 main_v23 main_v24 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v25 (broadcastInDim S800000 ![] bcast_S_S800000 : (⟨S_, .i32⟩ : BufTy).Contents (Elt F) → (⟨S800000, .i32⟩ : BufTy).Contents (Elt F)),
    binary main_arg1 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_arg1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v22 main_v28 main_v29 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_9 (constant S_ .f32 0x00000000#32),
    unary main_cst_9 main_v30 (broadcastInDim S50000x256 ![] bcast_S_S50000x256 : (⟨S_, .f32⟩ : BufTy).Contents (Elt F) → (⟨S50000x256, .f32⟩ : BufTy).Contents (Elt F)),
    unary main_arg2 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- Operations 50 … 58: the first layer's incoming-degree scale, bias and rectifier. -/
abbrev opsPost1 : List (HloOp τ sig (Elt F)) :=
  [ unary main_v18 main_v33 (broadcastInDim S50000x1 ![0] bcast_S50000_S50000x1_0 : (⟨S50000, .f32⟩ : BufTy).Contents (Elt F) → (⟨S50000x1, .f32⟩ : BufTy).Contents (Elt F)),
    unary main_v33 main_v34 (broadcastInDim S50000x256 ![0, 1] bcast_S50000x1_S50000x256_0_1 : (⟨S50000x1, .f32⟩ : BufTy).Contents (Elt F) → (⟨S50000x256, .f32⟩ : BufTy).Contents (Elt F)),
    binary main_v32 main_v34 main_v35 (mulf : (⟨S50000x256, .f32⟩ : BufTy).Contents (Elt F) → (⟨S50000x256, .f32⟩ : BufTy).Contents (Elt F) → (⟨S50000x256, .f32⟩ : BufTy).Contents (Elt F)),
    unary main_arg4 main_v36 (broadcastInDim S1x256 ![1] bcast_S256_S1x256_1 : (⟨S256, .f32⟩ : BufTy).Contents (Elt F) → (⟨S1x256, .f32⟩ : BufTy).Contents (Elt F)),
    unary main_v36 main_v37 (broadcastInDim S50000x256 ![0, 1] bcast_S1x256_S50000x256_0_1 : (⟨S1x256, .f32⟩ : BufTy).Contents (Elt F) → (⟨S50000x256, .f32⟩ : BufTy).Contents (Elt F)),
    binary main_v35 main_v37 main_v38 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v38) (TRef.of (T := ⟨S50000x256, .f32⟩) main_call2_v0) (TRef.of (T := ⟨S50000x256, .f32⟩) main_v39) maximumf ]

/-- Operations 59 … 90: the two degree factors, computed once more. -/
abbrev opsDeg2 : List (HloOp τ sig (Elt F)) :=
  [ nullary main_cst_10 (constant S_ .f32 0x3F800000#32),
    unary main_cst_10 main_v40 (broadcastInDim S800000 ![] bcast_S_S800000 : (⟨S_, .f32⟩ : BufTy).Contents (Elt F) → (⟨S800000, .f32⟩ : BufTy).Contents (Elt F)),
    nullary main_cst_11 (constant S_ .f32 0x00000000#32),
    unary main_cst_11 main_v41 (broadcastInDim S50000 ![] bcast_S_S50000 : (⟨S_, .f32⟩ : BufTy).Contents (Elt F) → (⟨S50000, .f32⟩ : BufTy).Contents (Elt F)),
    unary main_arg1 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_12 (constant S_ .f32 0x00000000#32),
    unary main_cst_12 main_v44 (broadcastInDim S50000 ![] bcast_S_S50000 : (⟨S_, .f32⟩ : BufTy).Contents (Elt F) → (⟨S50000, .f32⟩ : BufTy).Contents (Elt F)),
    unary main_arg2 main_v45 (broadcastInDim S800000x1 ![0] bcast_S800000_S800000x1_0 : (⟨S800000, .i32⟩ : BufTy).Contents (Elt F) → (⟨S800000x1, .i32⟩ : BufTy).Contents (Elt F)),
    ternary main_v44 main_v45 main_v40 main_v46 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_13 (constant S_ .f32 0x00000000#32),
    unary main_cst_13 main_v47 (broadcastInDim S50000 ![] bcast_S_S50000 : (⟨S_, .f32⟩ : BufTy).Contents (Elt F) → (⟨S50000, .f32⟩ : BufTy).Contents (Elt F)),
    binary main_v43 main_v47 main_v48 (cmpf .ogt : (⟨S50000, .f32⟩ : BufTy).Contents (Elt F) → (⟨S50000, .f32⟩ : BufTy).Contents (Elt F) → (⟨S50000, .i1⟩ : BufTy).Contents (Elt F)),
    nullary main_cst_14 (constant S_ .f32 0x3F800000#32),
    unary main_cst_14 main_v49 (broadcastInDim S50000 ![] bcast_S_S50000 : (⟨S_, .f32⟩ : BufTy).Contents (Elt F) → (⟨S50000, .f32⟩ : BufTy).Contents (Elt F)),
    binary main_v43 main_v49 main_v50 (maximumf : (⟨S50000, .f32⟩ : BufTy).Contents (Elt F) → (⟨S50000, .f32⟩ : BufTy).Contents (Elt F) → (⟨S50000, .f32⟩ : BufTy).Contents (Elt F)),
    unary main_v50 main_v51 (Host.rsqrt : (⟨S50000, .f32⟩ : BufTy).Contents (Elt F) → (⟨S50000, .f32⟩ : BufTy).Contents (Elt F)),
    nullary main_cst_15 (constant S_ .f32 0x00000000#32),
    TRef.unary (TRef.of (T := ⟨S_, .f32⟩) main_cst_15) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v48) (TRef.of (T := ⟨S50000, .f32⟩) main_v51) (TRef.of (T := ⟨S50000, .f32⟩) main_call3_v1) (TRef.of (T := ⟨S50000, .f32⟩) main_v52) select,
    nullary main_cst_16 (constant S_ .f32 0x00000000#32),
    unary main_cst_16 main_v53 (broadcastInDim S50000 ![] bcast_S_S50000 : (⟨S_, .f32⟩ : BufTy).Contents (Elt F) → (⟨S50000, .f32⟩ : BufTy).Contents (Elt F)),
    binary main_v46 main_v53 main_v54 (cmpf .ogt : (⟨S50000, .f32⟩ : BufTy).Contents (Elt F) → (⟨S50000, .f32⟩ : BufTy).Contents (Elt F) → (⟨S50000, .i1⟩ : BufTy).Contents (Elt F)),
    nullary main_cst_17 (constant S_ .f32 0x3F800000#32),
    unary main_cst_17 main_v55 (broadcastInDim S50000 ![] bcast_S_S50000 : (⟨S_, .f32⟩ : BufTy).Contents (Elt F) → (⟨S50000, .f32⟩ : BufTy).Contents (Elt F)),
    binary main_v46 main_v55 main_v56 (maximumf : (⟨S50000, .f32⟩ : BufTy).Contents (Elt F) → (⟨S50000, .f32⟩ : BufTy).Contents (Elt F) → (⟨S50000, .f32⟩ : BufTy).Contents (Elt F)),
    unary main_v56 main_v57 (Host.rsqrt : (⟨S50000, .f32⟩ : BufTy).Contents (Elt F) → (⟨S50000, .f32⟩ : BufTy).Contents (Elt F)),
    nullary main_cst_18 (constant S_ .f32 0x00000000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v54) (TRef.of (T := ⟨S50000, .f32⟩) main_v57) (TRef.of (T := ⟨S50000, .f32⟩) main_call4_v1) (TRef.of (T := ⟨S50000, .f32⟩) main_v58) select ]

/-- Operations 91 … 94: the second layer's product with its weights, scaled by the outgoing-degree factor. -/
abbrev opsDot2 : List (HloOp τ sig (Elt F)) :=
  [ binary main_v39 main_arg5 main_v59 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_v52 main_v60 (broadcastInDim S50000x1 ![0] bcast_S50000_S50000x1_0 : (⟨S50000, .f32⟩ : BufTy).Contents (Elt F) → (⟨S50000x1, .f32⟩ : BufTy).Contents (Elt F)),
    unary main_v60 main_v61 (broadcastInDim S50000x40 ![0, 1] bcast_S50000x1_S50000x40_0_1 : (⟨S50000x1, .f32⟩ : BufTy).Contents (Elt F) → (⟨S50000x40, .f32⟩ : BufTy).Contents (Elt F)),
    binary main_v59 main_v61 main_v62 (mulf : (⟨S50000x40, .f32⟩ : BufTy).Contents (Elt F) → (⟨S50000x40, .f32⟩ : BufTy).Contents (Elt F) → (⟨S50000x40, .f32⟩ : BufTy).Contents (Elt F)) ]

/-- Operations 95 … 107: the second layer's gather and scatter-add. -/
abbrev opsAgg2 : List (HloOp τ sig (Elt F)) :=
  [ nullary main_c_19 (constantI S_ 32 0#32),
    unary main_c_19 main_v63 (broadcastInDim S800000 ![] bcast_S_S800000 : (⟨S_, .i32⟩ : BufTy).Contents (Elt F) → (⟨S800000, .i32⟩ : BufTy).Contents (Elt F)),
    binary main_arg1 main_v63 main_v64 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v65 (broadcastInDim S800000 ![] bcast_S_S800000 : (⟨S_, .i32⟩ : BufTy).Contents (Elt F) → (⟨S800000, .i32⟩ : BufTy).Contents (Elt F)),
    binary main_arg1 main_v65 main_v66 (addi : (⟨S800000, .i32⟩ : BufTy).Contents (Elt F) → (⟨S800000, .i32⟩ : BufTy).Contents (Elt F) → (⟨S800000, .i32⟩ : BufTy).Contents (Elt F)),
    ternary main_v64 main_v66 main_arg1 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v67 main_v68 (broadcastInDim S800000x1 ![0] bcast_S800000_S800000x1_0 : (⟨S800000, .i32⟩ : BufTy).Contents (Elt F) → (⟨S800000x1, .i32⟩ : BufTy).Contents (Elt F)),
    binary main_v62 main_v68 main_v69 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    nullary main_cst_21 (constant S_ .f32 0x00000000#32),
    unary main_cst_21 main_v70 (broadcastInDim S50000x40 ![] bcast_S_S50000x40 : (⟨S_, .f32⟩ : BufTy).Contents (Elt F) → (⟨S50000x40, .f32⟩ : BufTy).Contents (Elt F)),
    unary main_arg2 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)) ]

/-- Operations 108 … 131: the second layer's incoming-degree scale, bias, rectifier and log-softmax over each row. -/
abbrev opsPost2 : List (HloOp τ sig (Elt F)) :=
  [ unary main_v58 main_v73 (broadcastInDim S50000x1 ![0] bcast_S50000_S50000x1_0 : (⟨S50000, .f32⟩ : BufTy).Contents (Elt F) → (⟨S50000x1, .f32⟩ : BufTy).Contents (Elt F)),
    unary main_v73 main_v74 (broadcastInDim S50000x40 ![0, 1] bcast_S50000x1_S50000x40_0_1 : (⟨S50000x1, .f32⟩ : BufTy).Contents (Elt F) → (⟨S50000x40, .f32⟩ : BufTy).Contents (Elt F)),
    binary main_v72 main_v74 main_v75 (mulf : (⟨S50000x40, .f32⟩ : BufTy).Contents (Elt F) → (⟨S50000x40, .f32⟩ : BufTy).Contents (Elt F) → (⟨S50000x40, .f32⟩ : BufTy).Contents (Elt F)),
    unary main_arg6 main_v76 (broadcastInDim S1x40 ![1] bcast_S40_S1x40_1 : (⟨S40, .f32⟩ : BufTy).Contents (Elt F) → (⟨S1x40, .f32⟩ : BufTy).Contents (Elt F)),
    unary main_v76 main_v77 (broadcastInDim S50000x40 ![0, 1] bcast_S1x40_S50000x40_0_1 : (⟨S1x40, .f32⟩ : BufTy).Contents (Elt F) → (⟨S50000x40, .f32⟩ : BufTy).Contents (Elt F)),
    binary main_v75 main_v77 main_v78 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x40, .f32⟩) main_call5_v0) (broadcastInDim S50000x40 ![] bcast_S_S50000x40),
    TRef.binary (TRef.of (T := ⟨S50000x40, .f32⟩) main_v78) (TRef.of (T := ⟨S50000x40, .f32⟩) main_call5_v0) (TRef.of (T := ⟨S50000x40, .f32⟩) main_v79) maximumf,
    TRef.nullary (TRef.of (T := ⟨S_, .f32⟩) main_call6_cst) (constant S_ .f32 0xFF800000#32),
    TRef.binary (TRef.of (T := ⟨S50000x40, .f32⟩) main_v79) (TRef.of (T := ⟨S_, .f32⟩) main_call6_cst) (TRef.of (T := ⟨S50000, .f32⟩) main_call6_v0) (fun x v => Host.reduce FloatOps.maximumf x v reducesTo_S50000x40_S50000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S50000, .f32⟩) main_call6_v1) (broadcastInDim S50000 ![] bcast_S_S50000),
    TRef.binary (TRef.of (T := ⟨S50000, .f32⟩) main_call6_v1) (TRef.of (T := ⟨S50000, .f32⟩) main_call6_v0) (TRef.of (T := ⟨S50000, .f32⟩) main_call6_v2) maximumf,
    TRef.unary (TRef.of (T := ⟨S50000, .f32⟩) main_call6_v2) (TRef.of (T := ⟨S50000x1, .f32⟩) main_call6_v3) (broadcastInDim S50000x1 ![0] bcast_S50000_S50000x1_0),
    TRef.unary (TRef.of (T := ⟨S50000x1, .f32⟩) main_call6_v3) (TRef.of (T := ⟨S50000x40, .f32⟩) main_call6_v4) (broadcastInDim S50000x40 ![0, 1] bcast_S50000x1_S50000x40_0_1),
    TRef.binary (TRef.of (T := ⟨S50000x40, .f32⟩) main_v79) (TRef.of (T := ⟨S50000x40, .f32⟩) main_call6_v4) (TRef.of (T := ⟨S50000x40, .f32⟩) main_call6_v5) subf,
    TRef.unary (TRef.of (T := ⟨S50000x40, .f32⟩) main_call6_v5) (TRef.of (T := ⟨S50000x40, .f32⟩) main_call6_v6) Host.exp,
    TRef.nullary (TRef.of (T := ⟨S_, .f32⟩) main_call6_cst_1) (constant S_ .f32 0x00000000#32),
    TRef.binary (TRef.of (T := ⟨S50000x40, .f32⟩) main_call6_v6) (TRef.of (T := ⟨S_, .f32⟩) main_call6_cst_1) (TRef.of (T := ⟨S50000, .f32⟩) main_call6_v7) (fun x v => Host.reduceAdd x v reducesTo_S50000x40_S50000_d1 h_S_),
    TRef.unary (TRef.of (T := ⟨S50000, .f32⟩) main_call6_v7) (TRef.of (T := ⟨S50000x1, .f32⟩) main_call6_v8) (broadcastInDim S50000x1 ![0] bcast_S50000_S50000x1_0),
    TRef.unary (TRef.of (T := ⟨S50000x1, .f32⟩) main_call6_v8) (TRef.of (T := ⟨S50000x1, .f32⟩) main_call6_v9) Host.log,
    TRef.unary (TRef.of (T := ⟨S50000x1, .f32⟩) main_call6_v9) (TRef.of (T := ⟨S50000x40, .f32⟩) main_call6_v10) (broadcastInDim S50000x40 ![0, 1] bcast_S50000x1_S50000x40_0_1),
    TRef.binary (TRef.of (T := ⟨S50000x40, .f32⟩) main_call6_v5) (TRef.of (T := ⟨S50000x40, .f32⟩) main_call6_v10) (TRef.of (T := ⟨S50000x40, .f32⟩) main_v80) subf ]

/-- The line is the eight stretches one after the other. -/
theorem ops_split : (ops : List (HloOp τ sig (Elt F))) =
    opsDeg ++ (opsDot1 ++ (opsAgg1 ++ (opsPost1 ++ (opsDeg2 ++ (opsDot2 ++ (opsAgg2 ++ opsPost2)))))) := rfl

variable (m : (ℓ : Loc nD τ sig) → Buf (Elt F) ℓ)

/-- Core `c`'s buffers after stretch 1. -/
def R1 (c : Dev nD) : Valuation τ sig (Elt F) := after opsDeg (launchContents m c)
/-- Core `c`'s buffers after stretch 2. -/
def R2 (c : Dev nD) : Valuation τ sig (Elt F) := after opsDot1 (R1 m c)
/-- Core `c`'s buffers after stretch 3. -/
def R3 (c : Dev nD) : Valuation τ sig (Elt F) := after opsAgg1 (R2 m c)
/-- Core `c`'s buffers after stretch 4. -/
def R4 (c : Dev nD) : Valuation τ sig (Elt F) := after opsPost1 (R3 m c)
/-- Core `c`'s buffers after stretch 5. -/
def R5 (c : Dev nD) : Valuation τ sig (Elt F) := after opsDeg2 (R4 m c)
/-- Core `c`'s buffers after stretch 6. -/
def R6 (c : Dev nD) : Valuation τ sig (Elt F) := after opsDot2 (R5 m c)
/-- Core `c`'s buffers after stretch 7. -/
def R7 (c : Dev nD) : Valuation τ sig (Elt F) := after opsAgg2 (R6 m c)
/-- Core `c`'s buffers after stretch 8. -/
def R8 (c : Dev nD) : Valuation τ sig (Elt F) := after opsPost2 (R7 m c)

/-- The whole line's contents are the last level's. -/
theorem after_ops (c : Dev nD) : after ops (launchContents m c) = R8 m c := by
  rw [ops_split, StableHlo.after_append, StableHlo.after_append, StableHlo.after_append, StableHlo.after_append,
    StableHlo.after_append, StableHlo.after_append, StableHlo.after_append]
  rfl

/-! ## What rides through: the argument arrays as launched, and results read again later -/

theorem R1_arg0 (c : Dev nD) : R1 m c (Proc.devRef .tc main_arg0) = m ((c.tc : Thread nD τ).loc main_arg0) := by
  unfold R1
  after_results_simp
theorem R1_arg1 (c : Dev nD) : R1 m c (Proc.devRef .tc main_arg1) = m ((c.tc : Thread nD τ).loc main_arg1) := by
  unfold R1
  after_results_simp
theorem R1_arg2 (c : Dev nD) : R1 m c (Proc.devRef .tc main_arg2) = m ((c.tc : Thread nD τ).loc main_arg2) := by
  unfold R1
  after_results_simp
theorem R1_arg3 (c : Dev nD) : R1 m c (Proc.devRef .tc main_arg3) = m ((c.tc : Thread nD τ).loc main_arg3) := by
  unfold R1
  after_results_simp
theorem R1_arg4 (c : Dev nD) : R1 m c (Proc.devRef .tc main_arg4) = m ((c.tc : Thread nD τ).loc main_arg4) := by
  unfold R1
  after_results_simp
theorem R1_arg5 (c : Dev nD) : R1 m c (Proc.devRef .tc main_arg5) = m ((c.tc : Thread nD τ).loc main_arg5) := by
  unfold R1
  after_results_simp
theorem R1_arg6 (c : Dev nD) : R1 m c (Proc.devRef .tc main_arg6) = m ((c.tc : Thread nD τ).loc main_arg6) := by
  unfold R1
  after_results_simp
theorem R2_arg1 (c : Dev nD) : R2 m c (Proc.devRef .tc main_arg1) = m ((c.tc : Thread nD τ).loc main_arg1) := by
  unfold R2
  after_results_simp
  exact R1_arg1 m c
theorem R2_arg2 (c : Dev nD) : R2 m c (Proc.devRef .tc main_arg2) = m ((c.tc : Thread nD τ).loc main_arg2) := by
  unfold R2
  after_results_simp
  exact R1_arg2 m c
theorem R2_arg4 (c : Dev nD) : R2 m c (Proc.devRef .tc main_arg4) = m ((c.tc : Thread nD τ).loc main_arg4) := by
  unfold R2
  after_results_simp
  exact R1_arg4 m c
theorem R2_arg5 (c : Dev nD) : R2 m c (Proc.devRef .tc main_arg5) = m ((c.tc : Thread nD τ).loc main_arg5) := by
  unfold R2
  after_results_simp
  exact R1_arg5 m c
theorem R2_arg6 (c : Dev nD) : R2 m c (Proc.devRef .tc main_arg6) = m ((c.tc : Thread nD τ).loc main_arg6) := by
  unfold R2
  after_results_simp
  exact R1_arg6 m c
theorem R3_arg1 (c : Dev nD) : R3 m c (Proc.devRef .tc main_arg1) = m ((c.tc : Thread nD τ).loc main_arg1) := by
  unfold R3
  after_results_simp
  exact R2_arg1 m c
theorem R3_arg2 (c : Dev nD) : R3 m c (Proc.devRef .tc main_arg2) = m ((c.tc : Thread nD τ).loc main_arg2) := by
  unfold R3
  after_results_simp
  exact R2_arg2 m c
theorem R3_arg4 (c : Dev nD) : R3 m c (Proc.devRef .tc main_arg4) = m ((c.tc : Thread nD τ).loc main_arg4) := by
  unfold R3
  after_results_simp
  exact R2_arg4 m c
theorem R3_arg5 (c : Dev nD) : R3 m c (Proc.devRef .tc main_arg5) = m ((c.tc : Thread nD τ).loc main_arg5) := by
  unfold R3
  after_results_simp
  exact R2_arg5 m c
theorem R3_arg6 (c : Dev nD) : R3 m c (Proc.devRef .tc main_arg6) = m ((c.tc : Thread nD τ).loc main_arg6) := by
  unfold R3
  after_results_simp
  exact R2_arg6 m c
theorem R4_arg1 (c : Dev nD) : R4 m c (Proc.devRef .tc main_arg1) = m ((c.tc : Thread nD τ).loc main_arg1) := by
  unfold R4
  after_results_simp
  exact R3_arg1 m c
theorem R4_arg2 (c : Dev nD) : R4 m c (Proc.devRef .tc main_arg2) = m ((c.tc : Thread nD τ).loc main_arg2) := by
  unfold R4
  after_results_simp
  exact R3_arg2 m c
theorem R4_arg5 (c : Dev nD) : R4 m c (Proc.devRef .tc main_arg5) = m ((c.tc : Thread nD τ).loc main_arg5) := by
  unfold R4
  after_results_simp
  exact R3_arg5 m c
theorem R4_arg6 (c : Dev nD) : R4 m c (Proc.devRef .tc main_arg6) = m ((c.tc : Thread nD τ).loc main_arg6) := by
  unfold R4
  after_results_simp
  exact R3_arg6 m c
theorem R5_arg1 (c : Dev nD) : R5 m c (Proc.devRef .tc main_arg1) = m ((c.tc : Thread nD τ).loc main_arg1) := by
  unfold R5
  after_results_simp
  exact R4_arg1 m c
theorem R5_arg2 (c : Dev nD) : R5 m c (Proc.devRef .tc main_arg2) = m ((c.tc : Thread nD τ).loc main_arg2) := by
  unfold R5
  after_results_simp
  exact R4_arg2 m c
theorem R5_arg5 (c : Dev nD) : R5 m c (Proc.devRef .tc main_arg5) = m ((c.tc : Thread nD τ).loc main_arg5) := by
  unfold R5
  after_results_simp
  exact R4_arg5 m c
theorem R5_arg6 (c : Dev nD) : R5 m c (Proc.devRef .tc main_arg6) = m ((c.tc : Thread nD τ).loc main_arg6) := by
  unfold R5
  after_results_simp
  exact R4_arg6 m c
theorem R6_arg1 (c : Dev nD) : R6 m c (Proc.devRef .tc main_arg1) = m ((c.tc : Thread nD τ).loc main_arg1) := by
  unfold R6
  after_results_simp
  exact R5_arg1 m c
theorem R6_arg2 (c : Dev nD) : R6 m c (Proc.devRef .tc main_arg2) = m ((c.tc : Thread nD τ).loc main_arg2) := by
  unfold R6
  after_results_simp
  exact R5_arg2 m c
theorem R6_arg6 (c : Dev nD) : R6 m c (Proc.devRef .tc main_arg6) = m ((c.tc : Thread nD τ).loc main_arg6) := by
  unfold R6
  after_results_simp
  exact R5_arg6 m c
theorem R7_arg6 (c : Dev nD) : R7 m c (Proc.devRef .tc main_arg6) = m ((c.tc : Thread nD τ).loc main_arg6) := by
  unfold R7
  after_results_simp
  exact R6_arg6 m c

theorem R2_v18 (c : Dev nD) : R2 m c (Proc.devRef .tc main_v18) = R1 m c (Proc.devRef .tc main_v18) := by
  unfold R2
  after_results_simp
theorem R3_v18 (c : Dev nD) : R3 m c (Proc.devRef .tc main_v18) = R2 m c (Proc.devRef .tc main_v18) := by
  unfold R3
  after_results_simp
theorem R5_v39 (c : Dev nD) : R5 m c (Proc.devRef .tc main_v39) = R4 m c (Proc.devRef .tc main_v39) := by
  unfold R5
  after_results_simp
theorem R6_v58 (c : Dev nD) : R6 m c (Proc.devRef .tc main_v58) = R5 m c (Proc.devRef .tc main_v58) := by
  unfold R6
  after_results_simp
theorem R7_v58 (c : Dev nD) : R7 m c (Proc.devRef .tc main_v58) = R6 m c (Proc.devRef .tc main_v58) := by
  unfold R7
  after_results_simp

/-! ## The four stretches that a launch of the kernel program stands for, read against the level before -/

/-- The first layer's scaled product. -/
theorem R2_v22 (c : Dev nD) : R2 m c (Proc.devRef .tc main_v22)
    = mulf (Host.dotGeneral dot_S50000x512_S512x256_S50000x256_1_0_0_1_n_n none (R1 m c (Proc.devRef .tc main_arg0)) (R1 m c (Proc.devRef .tc main_arg3)))
        (broadcastInDim S50000x256 ![0, 1] bcast_S50000x1_S50000x256_0_1
          (broadcastInDim S50000x1 ![0] bcast_S50000_S50000x1_0 (R1 m c (Proc.devRef .tc main_v12)))) := by
  unfold R2
  generalize R1 m c = V
  after_results_simp

/-- The first layer's scale, bias and rectifier. -/
theorem R4_v39 (c : Dev nD) : R4 m c (Proc.devRef .tc main_v39)
    = maximumf
        (addf
          (mulf (R3 m c (Proc.devRef .tc main_v32))
            (broadcastInDim S50000x256 ![0, 1] bcast_S50000x1_S50000x256_0_1
              (broadcastInDim S50000x1 ![0] bcast_S50000_S50000x1_0 (R3 m c (Proc.devRef .tc main_v18)))))
          (broadcastInDim S50000x256 ![0, 1] bcast_S1x256_S50000x256_0_1
            (broadcastInDim S1x256 ![1] bcast_S256_S1x256_1 (R3 m c (Proc.devRef .tc main_arg4)))))
        (broadcastInDim S50000x256 ![] bcast_S_S50000x256 (constant S_ .f32 0x00000000#32)) := by
  unfold R4
  generalize R3 m c = V
  after_results_simp
  simp only [Cert.TypedRef.ofBuf_toBuf]
  simp only [TRef.ofBuf, TRef.toBuf, cast_eq]

/-- The second layer's scaled product. -/
theorem R6_v62 (c : Dev nD) : R6 m c (Proc.devRef .tc main_v62)
    = mulf (Host.dotGeneral dot_S50000x256_S256x40_S50000x40_1_0_0_1_n_n none (R5 m c (Proc.devRef .tc main_v39)) (R5 m c (Proc.devRef .tc main_arg5)))
        (broadcastInDim S50000x40 ![0, 1] bcast_S50000x1_S50000x40_0_1
          (broadcastInDim S50000x1 ![0] bcast_S50000_S50000x1_0 (R5 m c (Proc.devRef .tc main_v52)))) := by
  unfold R6
  generalize R5 m c = V
  after_results_simp

/-- The second layer's rectified scores, before the log-softmax. -/
def scores (V : Valuation τ sig (Elt F)) : FVec F S50000x40 .f32 :=
  maximumf
    (addf
      (mulf (V (Proc.devRef .tc main_v72))
        (broadcastInDim S50000x40 ![0, 1] bcast_S50000x1_S50000x40_0_1
          (broadcastInDim S50000x1 ![0] bcast_S50000_S50000x1_0 (V (Proc.devRef .tc main_v58)))))
      (broadcastInDim S50000x40 ![0, 1] bcast_S1x40_S50000x40_0_1
        (broadcastInDim S1x40 ![1] bcast_S40_S1x40_1 (V (Proc.devRef .tc main_arg6)))))
    (broadcastInDim S50000x40 ![] bcast_S_S50000x40 (constant S_ .f32 0x00000000#32))

/-- Each row of the scores minus its maximum. -/
def shiftedScores (V : Valuation τ sig (Elt F)) : FVec F S50000x40 .f32 :=
  subf (scores V)
    (broadcastInDim S50000x40 ![0, 1] bcast_S50000x1_S50000x40_0_1
      (broadcastInDim S50000x1 ![0] bcast_S50000_S50000x1_0
        (maximumf (broadcastInDim S50000 ![] bcast_S_S50000 (constant S_ .f32 0xFF800000#32))
          (Host.reduce FloatOps.maximumf (scores V) (constant S_ .f32 0xFF800000#32) reducesTo_S50000x40_S50000_d1 h_S_))))

/-- The result: each shifted row minus the logarithm of the sum of its exponentials. -/
theorem R8_v80 (c : Dev nD) : R8 m c (Proc.devRef .tc main_v80)
    = subf (shiftedScores (R7 m c))
        (broadcastInDim S50000x40 ![0, 1] bcast_S50000x1_S50000x40_0_1
          (Host.log (broadcastInDim S50000x1 ![0] bcast_S50000_S50000x1_0
            (Host.reduceAdd (Host.exp (shiftedScores (R7 m c))) (constant S_ .f32 0x00000000#32) reducesTo_S50000x40_S50000_d1 h_S_)))) := by
  unfold R8 shiftedScores scores
  generalize R7 m c = V
  after_results_simp
  simp only [Cert.TypedRef.ofBuf_toBuf]
  simp only [TRef.ofBuf, TRef.toBuf, cast_eq]

/-! ## The run -/

set_option maxRecDepth 8192 in
set_option maxHeartbeats 4000000 in
/-- From any memory with zero counters every weakly fair execution of the reference terminates, the result buffer
    holding the last level's contents and the argument arrays as launched. -/
theorem run_levels (ρ : Dev nD → PrngReg) :
    θ_run defs (onTc (τ := τ) (main (F := F))) ⟨m, fun _ => 0, ρ⟩ fun r => ∀ c : Dev nD,
      r.2.mem ((c.tc : Thread nD τ).loc main_v80) = R8 m c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v80).trans (congrFun (after_ops m c) (Proc.devRef .tc main_v80)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.Stages

end
-- ==== Proof.KernelHost.lean ====
import proofs.«125506_j15659450761582_1_alg».proof.Proof.Gen.KernelIdeal.Frame

set_option maxRecDepth 16384

noncomputable section

/-! # Buffers that ride through the kernel program untouched

Between the launches the program runs stretches of host operations, and each launch writes only its own output
array. A buffer that a stretch does not write and that is none of a launch's arrays holds after it what it held
before. So the argument arrays hold their launch contents at every boundary, and the two degree factors, once
computed by the first stretches, are still there when the later stretches read them. -/

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first four stretches leave the arguments as launched -/

theorem W4_arg0 (c : Dev nD) : W4 m ρ c (Proc.devRef .tc main_arg0) = m ((c : Thread nD τ).loc main_arg0) := by
  after_results_simp <;> rfl
theorem W4_arg1 (c : Dev nD) : W4 m ρ c (Proc.devRef .tc main_arg1) = m ((c : Thread nD τ).loc main_arg1) := by
  after_results_simp <;> rfl
theorem W4_arg2 (c : Dev nD) : W4 m ρ c (Proc.devRef .tc main_arg2) = m ((c : Thread nD τ).loc main_arg2) := by
  after_results_simp <;> rfl
theorem W4_arg3 (c : Dev nD) : W4 m ρ c (Proc.devRef .tc main_arg3) = m ((c : Thread nD τ).loc main_arg3) := by
  after_results_simp <;> rfl
theorem W4_arg4 (c : Dev nD) : W4 m ρ c (Proc.devRef .tc main_arg4) = m ((c : Thread nD τ).loc main_arg4) := by
  after_results_simp <;> rfl
theorem W4_arg5 (c : Dev nD) : W4 m ρ c (Proc.devRef .tc main_arg5) = m ((c : Thread nD τ).loc main_arg5) := by
  after_results_simp <;> rfl
theorem W4_arg6 (c : Dev nD) : W4 m ρ c (Proc.devRef .tc main_arg6) = m ((c : Thread nD τ).loc main_arg6) := by
  after_results_simp <;> rfl

/-! ## One stretch or launch at a time, for any buffer it leaves alone -/

/-- The reshape before the first launch writes only its own result. -/
theorem W5_of_W4 (c : Dev nD) (r : Ref sig .tc) (h : r ≠ main_v19) :
    W5 m ρ c (Proc.devRef .tc r) = W4 m ρ c (Proc.devRef .tc r) :=
  StableHlo.reshape_result_ne _ _ _ _ _ _ (W4 m ρ c) h

/-- Through the first launch. -/
theorem W6_of_W4 (c : Dev nD) (r : Ref sig .tc) (h0 : ∀ w, Pipeline.arrRef spec0 w ≠ r) (h : r ≠ main_v19) :
    W6 m ρ c (Proc.devRef .tc r) = W4 m ρ c (Proc.devRef .tc r) :=
  (W6_of_ne m ρ c r h0).trans (W5_of_W4 m ρ c r h)

/-- The stretch between the first two launches writes only its own fifteen results. -/
theorem keep_hostOps1 (V : Valuation τ sig (Elt F)) (r : Ref sig .tc)
    (hr : ∀ y ∈ [main_c, main_v21, main_v22, main_c_8, main_v23, main_v24, main_v25, main_v26, main_v27, main_cst_9, main_v28, main_v29, main_v30, main_v31, main_v32], r ≠ y) :
    after hostOps1 V (Proc.devRef .tc r) = V (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hr _ (by decide))))

/-- Through that stretch and the second launch. -/
theorem W8_of_W6 (c : Dev nD) (r : Ref sig .tc) (h1 : ∀ w, Pipeline.arrRef spec1 w ≠ r)
    (hr : ∀ y ∈ [main_c, main_v21, main_v22, main_c_8, main_v23, main_v24, main_v25, main_v26, main_v27, main_cst_9, main_v28, main_v29, main_v30, main_v31, main_v32], r ≠ y) :
    W8 m ρ c (Proc.devRef .tc r) = W6 m ρ c (Proc.devRef .tc r) :=
  (W8_of_ne m ρ c r h1).trans (keep_hostOps1 (W6 m ρ c) r hr)

/-- Through the reshape before the third launch, and that launch. -/
theorem W10_of_W8 (c : Dev nD) (r : Ref sig .tc) (h2 : ∀ w, Pipeline.arrRef spec2 w ≠ r) (h : r ≠ main_v34) :
    W10 m ρ c (Proc.devRef .tc r) = W8 m ρ c (Proc.devRef .tc r) :=
  (W10_of_ne m ρ c r h2).trans (StableHlo.reshape_result_ne _ _ _ _ _ _ (W8 m ρ c) h)

/-! ## What the later stretches and launches find -/

theorem W5_arg0 (c : Dev nD) : W5 m ρ c (Proc.devRef .tc main_arg0) = m ((c : Thread nD τ).loc main_arg0) :=
  (W5_of_W4 m ρ c main_arg0 (by decide)).trans (W4_arg0 m ρ c)
theorem W5_arg3 (c : Dev nD) : W5 m ρ c (Proc.devRef .tc main_arg3) = m ((c : Thread nD τ).loc main_arg3) :=
  (W5_of_W4 m ρ c main_arg3 (by decide)).trans (W4_arg3 m ρ c)

theorem W6_arg1 (c : Dev nD) : W6 m ρ c (Proc.devRef .tc main_arg1) = m ((c : Thread nD τ).loc main_arg1) :=
  (W6_of_W4 m ρ c main_arg1 (by decide) (by decide)).trans (W4_arg1 m ρ c)
theorem W6_arg2 (c : Dev nD) : W6 m ρ c (Proc.devRef .tc main_arg2) = m ((c : Thread nD τ).loc main_arg2) :=
  (W6_of_W4 m ρ c main_arg2 (by decide) (by decide)).trans (W4_arg2 m ρ c)
theorem W6_arg4 (c : Dev nD) : W6 m ρ c (Proc.devRef .tc main_arg4) = m ((c : Thread nD τ).loc main_arg4) :=
  (W6_of_W4 m ρ c main_arg4 (by decide) (by decide)).trans (W4_arg4 m ρ c)
theorem W6_v18 (c : Dev nD) : W6 m ρ c (Proc.devRef .tc main_v18) = W4 m ρ c (Proc.devRef .tc main_v18) :=
  W6_of_W4 m ρ c main_v18 (by decide) (by decide)

theorem W8_v12 (c : Dev nD) : W8 m ρ c (Proc.devRef .tc main_v12) = W4 m ρ c (Proc.devRef .tc main_v12) :=
  (W8_of_W6 m ρ c main_v12 (by decide) (by decide)).trans (W6_of_W4 m ρ c main_v12 (by decide) (by decide))
theorem W8_arg5 (c : Dev nD) : W8 m ρ c (Proc.devRef .tc main_arg5) = m ((c : Thread nD τ).loc main_arg5) :=
  (W8_of_W6 m ρ c main_arg5 (by decide) (by decide)).trans ((W6_of_W4 m ρ c main_arg5 (by decide) (by decide)).trans (W4_arg5 m ρ c))

theorem W10_arg1 (c : Dev nD) : W10 m ρ c (Proc.devRef .tc main_arg1) = m ((c : Thread nD τ).loc main_arg1) :=
  (W10_of_W8 m ρ c main_arg1 (by decide) (by decide)).trans ((W8_of_W6 m ρ c main_arg1 (by decide) (by decide)).trans (W6_arg1 m ρ c))
theorem W10_arg2 (c : Dev nD) : W10 m ρ c (Proc.devRef .tc main_arg2) = m ((c : Thread nD τ).loc main_arg2) :=
  (W10_of_W8 m ρ c main_arg2 (by decide) (by decide)).trans ((W8_of_W6 m ρ c main_arg2 (by decide) (by decide)).trans (W6_arg2 m ρ c))
theorem W10_arg6 (c : Dev nD) : W10 m ρ c (Proc.devRef .tc main_arg6) = m ((c : Thread nD τ).loc main_arg6) :=
  (W10_of_W8 m ρ c main_arg6 (by decide) (by decide)).trans ((W8_of_W6 m ρ c main_arg6 (by decide) (by decide)).trans
    ((W6_of_W4 m ρ c main_arg6 (by decide) (by decide)).trans (W4_arg6 m ρ c)))
theorem W10_v18 (c : Dev nD) : W10 m ρ c (Proc.devRef .tc main_v18) = W4 m ρ c (Proc.devRef .tc main_v18) :=
  (W10_of_W8 m ρ c main_v18 (by decide) (by decide)).trans ((W8_of_W6 m ρ c main_v18 (by decide) (by decide)).trans (W6_v18 m ρ c))

/-! ## The reshapes that feed the launches -/

/-- Before the first launch: the outgoing-degree factor as a column. -/
theorem W5_v19 (c : Dev nD) : W5 m ρ c (Proc.devRef .tc main_v19)
    = shapeCast S50000x1 (W4 m ρ c (Proc.devRef .tc main_v12)) shapeCasts_S50000_S50000x1 := by
  show after hostOps0_4 (W4 m ρ c) (Proc.devRef .tc main_v19) = _
  generalize W4 m ρ c = V
  after_results_simp
  try rfl

/-- Before the second launch: the incoming-degree factor as a column, -/
theorem W7_v31 (c : Dev nD) : W7 m ρ c (Proc.devRef .tc main_v31)
    = shapeCast S50000x1 (W6 m ρ c (Proc.devRef .tc main_v18)) shapeCasts_S50000_S50000x1 := by
  show after hostOps1 (W6 m ρ c) (Proc.devRef .tc main_v31) = _
  generalize W6 m ρ c = V
  after_results_simp
  try rfl

/-- and the first bias as a row. -/
theorem W7_v32 (c : Dev nD) : W7 m ρ c (Proc.devRef .tc main_v32)
    = shapeCast S1x256 (W6 m ρ c (Proc.devRef .tc main_arg4)) shapeCasts_S256_S1x256 := by
  show after hostOps1 (W6 m ρ c) (Proc.devRef .tc main_v32) = _
  generalize W6 m ρ c = V
  after_results_simp
  try rfl

/-- Before the third launch: the outgoing-degree factor as a column once more; the hidden features and the second
    weights are where they were. -/
theorem W9_v34 (c : Dev nD) : W9 m ρ c (Proc.devRef .tc main_v34)
    = shapeCast S50000x1 (W8 m ρ c (Proc.devRef .tc main_v12)) shapeCasts_S50000_S50000x1 := by
  show after hostOps2 (W8 m ρ c) (Proc.devRef .tc main_v34) = _
  generalize W8 m ρ c = V
  after_results_simp
  try rfl
theorem W9_v33 (c : Dev nD) : W9 m ρ c (Proc.devRef .tc main_v33) = W8 m ρ c (Proc.devRef .tc main_v33) := by
  show after hostOps2 (W8 m ρ c) (Proc.devRef .tc main_v33) = _
  generalize W8 m ρ c = V
  after_results_simp
theorem W9_arg5 (c : Dev nD) : W9 m ρ c (Proc.devRef .tc main_arg5) = m ((c : Thread nD τ).loc main_arg5) := by
  refine Eq.trans ?_ (W8_arg5 m ρ c)
  show after hostOps2 (W8 m ρ c) (Proc.devRef .tc main_arg5) = _
  generalize W8 m ρ c = V
  after_results_simp

/-- Before the fourth launch: the incoming-degree factor as a column, -/
theorem W11_v46 (c : Dev nD) : W11 m ρ c (Proc.devRef .tc main_v46)
    = shapeCast S50000x1 (W10 m ρ c (Proc.devRef .tc main_v18)) shapeCasts_S50000_S50000x1 := by
  show after hostOps3 (W10 m ρ c) (Proc.devRef .tc main_v46) = _
  generalize W10 m ρ c = V
  after_results_simp
  try rfl

/-- and the second bias as a row. -/
theorem W11_v47 (c : Dev nD) : W11 m ρ c (Proc.devRef .tc main_v47)
    = shapeCast S1x40 (W10 m ρ c (Proc.devRef .tc main_arg6)) shapeCasts_S40_S1x40 := by
  show after hostOps3 (W10 m ρ c) (Proc.devRef .tc main_v47) = _
  generalize W10 m ρ c = V
  after_results_simp
  try rfl

end Cert.KernelIdeal.Host

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«125506_j15659450761582_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.LibRowBlockGate.lean ====
import Idealize.ShloMosaic.PureOps.Ideal.Laws
import Idealize.ShloMosaic.Lib.ValueIdx
import Idealize.ShloMosaic.Lib.Layout
import Idealize.ShloMosaic.Lib.Pipeline.Value
import proofs.«125506_j15659450761582_1_alg».proof.Proof.LibRowBlock

noncomputable section

/-! # Row blocks: the exponential, a quotient, and a column laid across the columns

Three more operations that work row by row and so commute with taking a block of rows (rows
`t·R … t·R + R − 1` of an array of `M = T·R` rows): the exponential and the quotient, entry by entry, and a column
`[M, 1]` copied across `N` columns, where entry `(r, q)` of the result is the column's entry in row `r`. On the
extended reals the on-chip exponential and quotient are the host's. -/

namespace Cert.RowBlock

open Idealize.ShloMosaic Idealize.ShloMosaic.ValueIdx Idealize.ShloMosaic.Layout

variable {R M T : ℕ} {α : Type}

section Pointwise
variable {N : ℕ} {φ : FTy} (hN : Tiles ⟨2, ![R, N]⟩ ⟨2, ![M, N]⟩ 0 T) (t : Fin T)
  (X Y : FVec Ideal ⟨2, ![M, N]⟩ φ)

/-- `e^x` of a block of rows is the block of `e^x`. -/
theorem exp_rows : exp (block ⟨2, ![R, N]⟩ ⟨2, ![M, N]⟩ 0 T t X hN)
    = block ⟨2, ![R, N]⟩ ⟨2, ![M, N]⟩ 0 T t (Host.exp X) hN := rfl

/-- `x / y` of two blocks of rows is the block of `x / y`. -/
theorem divf_rows : divf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (Host.divf X Y) hN := rfl
end Pointwise

/-- A column copied across `N` columns: entry `(r, q)` of the block is the column's entry in row `t·R + r`, which
    is entry `(r, 0)` of the column's own block. -/
theorem column_rows {N : ℕ} (h1 : Tiles ⟨2, ![R, 1]⟩ ⟨2, ![M, 1]⟩ 0 T) (hN : Tiles ⟨2, ![R, N]⟩ ⟨2, ![M, N]⟩ 0 T) (t : Fin T)
    (hbt : (⟨2, ![R, 1]⟩ : Shape).Broadcasts ⟨2, ![R, N]⟩)
    (hb : (⟨2, ![M, 1]⟩ : Shape).BroadcastsInDim ⟨2, ![M, N]⟩ (![0, 1] : Fin 2 → Fin 2))
    (col : (⟨2, ![M, 1]⟩ : Shape).Idx → α) :
    broadcastTo ⟨2, ![R, N]⟩ (block ⟨2, ![R, 1]⟩ ⟨2, ![M, 1]⟩ 0 T t col h1) hbt
      = block ⟨2, ![R, N]⟩ ⟨2, ![M, N]⟩ 0 T t (broadcastInDim ⟨2, ![M, N]⟩ ![0, 1] hb col) hN := by
  funext y
  obtain ⟨p, q, rfl⟩ : ∃ (p : Fin R) (q : Fin N), y = ix2 p q := ⟨y 0, y 1, eq_ix2 y⟩
  have hl : broadcastTo ⟨2, ![R, N]⟩ (block ⟨2, ![R, 1]⟩ ⟨2, ![M, 1]⟩ 0 T t col h1) hbt (ix2 p q)
      = block ⟨2, ![R, 1]⟩ ⟨2, ![M, 1]⟩ 0 T t col h1 (ix2 p (0 : Fin 1)) := by
    refine broadcastTo_apply _ hbt (ix2 p q) (ix2 p (0 : Fin 1)) fun a => ?_
    match a with
    | ⟨0, _⟩ =>
      show p.val = if R = 1 then 0 else p.val
      split
      · have := p.isLt; omega
      · rfl
    | ⟨1, _⟩ => rfl
  rw [hl, block_apply, block_apply]
  refine Eq.symm (broadcastInDim_apply ![0, 1] hb col (hN.idx t (ix2 p q)) (h1.idx t (ix2 p (0 : Fin 1))) fun a => ?_)
  match a with
  | ⟨0, _⟩ =>
    show t.val * R + p.val = if M = 1 then 0 else t.val * R + p.val
    split
    · rename_i hM
      have hlt : t.val * R + p.val < M := (hN.idx t (ix2 p q) 0).isLt
      omega
    · rfl
  | ⟨1, _⟩ => rfl

end Cert.RowBlock

end
-- ==== Proof.Region0.lean ====
import proofs.«125506_j15659450761582_1_alg».proof.Proof.Gen.KernelIdeal.Frame
import proofs.«125506_j15659450761582_1_alg».proof.Proof.LibRowBlock
import proofs.«125506_j15659450761582_1_alg».proof.Proof.LibRowBlockGate
import Idealize.ShloMosaic.Lib.Pipeline.Value
import Idealize.ShloMosaic.Lib.Layout

set_option maxRecDepth 16384

noncomputable section

/-! # The first launch: rows of `x · W1`, each scaled by its node's outgoing-degree factor

The launch walks the 50 blocks of 1000 rows of `x` (50000 × 512). At block `t` it multiplies rows
`1000 t … 1000 t + 999` of `x` by the whole of `W1` (512 × 256) and scales row `r` of the product by entry `r` of the
block's slice of the column `s` (50000 × 1). Row by row this is the whole-array computation
`(x · W1) ⊙ (s copied across the 256 columns)`: block `t` of that array is what point `t` writes back, the blocks tile
the 50000 rows, so the output array ends holding it. -/

namespace Cert.KernelIdeal.Region0

open Cert.KernelIdeal Cert.KernelIdeal.Gen
open Idealize.ShloMosaic Idealize.ShloMosaic.TcCoe Idealize.ShloMosaic.Layout Idealize.ShloMosaic.ValueIdx
open Idealize.SL.Sem
open Idealize.ShloMosaic.Pipeline (Dat Cfg Window)

/-- The whole-array computation: the product of `x` with the weights, each row scaled by the column's entry. -/
def scaledProduct (d : DotDims S50000x512 S512x256 S50000x256)
    (hb : S50000x1.BroadcastsInDim S50000x256 (![0, 1] : Fin 2 → Fin 2))
    (x : FVec Ideal S50000x512 .f32) (w : FVec Ideal S512x256 .f32) (s : FVec Ideal S50000x1 .f32) :
    FVec Ideal S50000x256 .f32 :=
  mulf (Host.dotGeneral d none x w) (broadcastInDim S50000x256 ![0, 1] hb s)

theorem tiles_x : Tiles S1000x512 S50000x512 0 cfg0.N := by decide
theorem tiles_s : Tiles S1000x1 S50000x1 0 cfg0.N := by decide
theorem tiles_y : Tiles S1000x256 S50000x256 0 cfg0.N := by decide

/-- What the body stores at a block of rows is that block of the whole-array computation. -/
theorem pay_rows (d : DotDims S50000x512 S512x256 S50000x256) (hd : d = DotDims.plain 50000 512 256)
    (hb : S50000x1.BroadcastsInDim S50000x256 (![0, 1] : Fin 2 → Fin 2)) (t : Fin cfg0.N)
    (x : FVec Ideal S50000x512 .f32) (w : FVec Ideal S512x256 .f32) (s : FVec Ideal S50000x1 .f32) :
    k0_pay1 (F := Ideal) (block S1000x512 S50000x512 0 cfg0.N t x tiles_x) w (block S1000x1 S50000x1 0 cfg0.N t s tiles_s)
      = block S1000x256 S50000x256 0 cfg0.N t (scaledProduct d hb x w s) tiles_y := by
  unfold k0_pay1 scaledProduct
  dsimp only
  rw [shapeCast_self,
    Cert.RowBlock.dot_rows_trunc (R := 1000) (M := 50000) (T := cfg0.N) (K := 512) (N := 256) bitsLt_bf16_f32 bitsLt_bf16_f32
      dot_S1000x512_S512x256_S1000x256_1_0_0_1_n_n rfl d hd tiles_x tiles_y none none t x w,
    Cert.RowBlock.column_rows (R := 1000) (M := 50000) (T := cfg0.N) (N := 256) tiles_s tiles_y t broadcasts_S1000x1_S1000x256 hb s]
  rfl

theorem hz : (![0, 0] : Fin 2 → Nat) = fun _ => 0 := funext fun a => by fin_cases a <;> rfl

/-- The printed index maps, decided over the grid: the row-blocked windows sit at block `(t, 0)`, the weights at
    `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The block of `x` at point `t` is rows `1000 t …` of the array. -/
theorem blk_x (c : Dev nD) (t : Fin cfg0.N) :
    (iblk0 V c 0 t : Vec Ideal S1000x512 .f32) = block S1000x512 S50000x512 0 cfg0.N t (V c main_arg0) tiles_x := by
  funext j
  show V c main_arg0 (((cfg0.win 0).blk t).view.emb j) = V c main_arg0 (tiles_x.idx t j)
  refine congrArg (V c main_arg0) (funext fun a => Fin.ext ?_)
  obtain ⟨e0, e1, -⟩ := idx_facts t
  match a with
  | ⟨0, _⟩ => show win0_0.index t (0 : Fin 2) * 1000 + 1 * (j 0).val = t.val * 1000 + (j 0).val; rw [e0]; omega
  | ⟨1, _⟩ => show win0_0.index t (1 : Fin 2) * 512 + 1 * (j 1).val = (j 1).val; rw [e1]; omega

/-- The block of the weights at every point is the whole array. -/
theorem blk_w (c : Dev nD) (t : Fin cfg0.N) : (iblk0 V c 1 t : Vec Ideal S512x256 .f32) = V c main_arg3 := by
  funext j
  show V c main_arg3 (((cfg0.win 1).blk t).view.emb j) = V c main_arg3 j
  refine congrArg (V c main_arg3) (funext fun a => Fin.ext ?_)
  obtain ⟨-, -, e0, e1, -⟩ := idx_facts t
  match a with
  | ⟨0, _⟩ => show win0_1.index t (0 : Fin 2) * 512 + 1 * (j 0).val = (j 0).val; rw [e0]; omega
  | ⟨1, _⟩ => show win0_1.index t (1 : Fin 2) * 256 + 1 * (j 1).val = (j 1).val; rw [e1]; omega

/-- The block of the scale column at point `t` is rows `1000 t …` of the column. -/
theorem blk_s (c : Dev nD) (t : Fin cfg0.N) :
    (iblk0 V c 2 t : Vec Ideal S1000x1 .f32) = block S1000x1 S50000x1 0 cfg0.N t (V c main_v19) tiles_s := by
  funext j
  show V c main_v19 (((cfg0.win 2).blk t).view.emb j) = V c main_v19 (tiles_s.idx t j)
  refine congrArg (V c main_v19) (funext fun a => Fin.ext ?_)
  obtain ⟨-, -, -, -, e0, e1, -⟩ := idx_facts t
  match a with
  | ⟨0, _⟩ => show win0_2.index t (0 : Fin 2) * 1000 + 1 * (j 0).val = t.val * 1000 + (j 0).val; rw [e0]; omega
  | ⟨1, _⟩ => show win0_2.index t (1 : Fin 2) * 1 + 1 * (j 1).val = (j 1).val; rw [e1]; omega

/-- Reading the output window's block `t` off an array takes rows `1000 t …` of it. -/
theorem read_y (t : Fin cfg0.N) (G : FVec Ideal S50000x256 .f32) :
    (((cfg0.win 3).blk t).view.read (Elt Ideal) G : Vec Ideal S1000x256 .f32) = block S1000x256 S50000x256 0 cfg0.N t G tiles_y := by
  funext j
  show G (((cfg0.win 3).blk t).view.emb j) = G (tiles_y.idx t j)
  refine congrArg G (funext fun a => Fin.ext ?_)
  obtain ⟨-, -, -, -, -, -, e0, e1⟩ := idx_facts t
  match a with
  | ⟨0, _⟩ => show win0_3.index t (0 : Fin 2) * 1000 + 1 * (j 0).val = t.val * 1000 + (j 0).val; rw [e0]; omega
  | ⟨1, _⟩ => show win0_3.index t (1 : Fin 2) * 256 + 1 * (j 1).val = (j 1).val; rw [e1]; omega

/-- What point `t` writes back is block `t` of the whole-array computation of the arrays the launch finds. -/
theorem flushed_eq (d : DotDims S50000x512 S512x256 S50000x256) (hd : d = DotDims.plain 50000 512 256)
    (hb : S50000x1.BroadcastsInDim S50000x256 (![0, 1] : Fin 2 → Fin 2)) (c : Dev nD) (t : Fin cfg0.N) :
    (dat0 V c).flushed 3 t
      = ((cfg0.win 3).blk t).view.read (Elt Ideal) (scaledProduct d hb (V c main_arg0) (V c main_arg3) (V c main_v19)) := by
  show (cfg0.win 3).cut (grid0.coords t) ((dat0 V c).after 3 t) = _
  rw [after0_3]
  unfold out0_3
  rw [View.canon_unit_zero hz]
  simp only [View.ld_unit_zero (S := S1000x512) hz, View.ld_unit_zero (S := S512x256) hz, View.ld_unit_zero (S := S1000x1) hz]
  rw [blk_x V c t, blk_w V c t, blk_s V c t, pay_rows d hd hb t, read_y t]
  rfl

/-- An index of the output array is in point `t`'s block iff its row is among rows `1000 t … 1000 t + 999`. -/
theorem mem_blk (t : Fin cfg0.N) (i : S50000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v20).slice (win0_3.rect t)).set ↔ _
  rw [View.set_slice_whole, Rect.mem_set_unit]
  exact Iff.rfl

/-- Every row lies in the block of its thousand. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 50 := N_0
  refine ⟨⟨(i 0).val / 1000, by rw [hN]; omega⟩, flush0_3 _, ?_⟩
  rw [mem_blk]
  obtain ⟨-, -, -, -, -, -, e0, e1⟩ := idx_facts ⟨(i 0).val / 1000, by rw [hN]; omega⟩
  intro a
  match a with
  | ⟨0, _⟩ =>
    show win0_3.index _ (0 : Fin 2) * 1000 ≤ (i 0).val ∧ (i 0).val < win0_3.index _ (0 : Fin 2) * 1000 + 1000
    rw [e0]; show (i 0).val / 1000 * 1000 ≤ (i 0).val ∧ (i 0).val < (i 0).val / 1000 * 1000 + 1000; omega
  | ⟨1, _⟩ =>
    show win0_3.index _ (1 : Fin 2) * 256 ≤ (i 1).val ∧ (i 1).val < win0_3.index _ (1 : Fin 2) * 256 + 256
    rw [e1]; omega

/-- THE OUTPUT ARRAY after the launch: the whole-array computation of the arrays the launch finds. -/
theorem final (d : DotDims S50000x512 S512x256 S50000x256) (hd : d = DotDims.plain 50000 512 256)
    (hb : S50000x1.BroadcastsInDim S50000x256 (![0, 1] : Fin 2 → Fin 2)) (c : Dev nD) :
    (dat0 V c).arrAt 3 cfg0.N = scaledProduct d hb (V c main_arg0) (V c main_arg3) (V c main_v19) :=
  (dat0 V c).arrAt_eq_of_cover 3 _ (fun t _ => flushed_eq V d hd hb c t) cover

end Cert.KernelIdeal.Region0

end
-- ==== Proof.LibRowSpell.lean ====
import Idealize.ShloMosaic.Lib.ValueIdx
import Idealize.ShloMosaic.Lib.ValueLayout
import Idealize.ShloMosaic.Lib.Layout
import Idealize.ShloMosaic.Lib.Pipeline.Value

noncomputable section

/-! # A row under every row of a block; a vector as a column and as a row, in two spellings

`row_rows`: a one-row array `[1, N]` copied down the `R` rows of a block is the block (rows `t·R …`) of the same
row copied down all `M = T·R` rows: every row of either is the one row.

`column_spell`, `row_spell`: a vector `[a]` viewed as the column `[a, 1]` (as the row `[1, a]`) is written either as a
reshape or as a broadcast along the new unit axis; both read entry `i` of the vector at `(i, 0)` (at `(0, i)`), so the
two arrays are equal. -/

namespace Cert.RowSpell

open Idealize.ShloMosaic Idealize.ShloMosaic.ValueIdx Idealize.ShloMosaic.Layout

variable {α : Type}

/-- A row copied down a block's rows is the block of the row copied down all rows. -/
theorem row_rows {R M T N : ℕ} (hN : Tiles ⟨2, ![R, N]⟩ ⟨2, ![M, N]⟩ 0 T) (t : Fin T)
    (hbt : (⟨2, ![1, N]⟩ : Shape).Broadcasts ⟨2, ![R, N]⟩)
    (h2 : (⟨2, ![1, N]⟩ : Shape).BroadcastsInDim ⟨2, ![M, N]⟩ (![0, 1] : Fin 2 → Fin 2))
    (b : (⟨2, ![1, N]⟩ : Shape).Idx → α) :
    broadcastTo ⟨2, ![R, N]⟩ b hbt
      = block ⟨2, ![R, N]⟩ ⟨2, ![M, N]⟩ 0 T t (broadcastInDim ⟨2, ![M, N]⟩ ![0, 1] h2 b) hN := by
  funext y
  obtain ⟨p, q, rfl⟩ : ∃ (p : Fin R) (q : Fin N), y = ix2 p q := ⟨y 0, y 1, eq_ix2 y⟩
  rw [broadcastTo_1b_ab_apply, block_apply]
  refine Eq.symm (broadcastInDim_apply ![0, 1] h2 b (hN.idx t (ix2 p q)) (ix2 (0 : Fin 1) q) fun a => ?_)
  match a with
  | ⟨0, _⟩ => rfl
  | ⟨1, _⟩ =>
    show q.val = if N = 1 then 0 else q.val
    split
    · have := q.isLt; omega
    · rfl

/-- A vector as a column: the reshape and the broadcast along a new last axis are one array. -/
theorem column_spell {a : ℕ} (x : (⟨1, ![a]⟩ : Shape).Idx → α) (hc : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x hc = broadcastInDim ⟨2, ![a, 1]⟩ ![0] hb x := by
  funext y
  obtain ⟨p, q, rfl⟩ : ∃ (p : Fin a) (q : Fin 1), y = ix2 p q := ⟨y 0, y 1, eq_ix2 y⟩
  have hl : shapeCast ⟨2, ![a, 1]⟩ x hc (ix2 p q) = x (ix1 p) :=
    shapeCast_apply x hc _ _ (by
      have hq : q.val = 0 := by omega
      rw [Shape.rowMajor_val_two, Shape.rowMajor_val_one]
      show p.val = p.val * 1 + q.val
      rw [hq, Nat.mul_one, Nat.add_zero])
  rw [hl]
  refine Eq.symm (broadcastInDim_apply ![0] hb x (ix2 p q) (ix1 p) fun ax => ?_)
  match ax with
  | ⟨0, _⟩ =>
    show p.val = if a = 1 then 0 else p.val
    split
    · have := p.isLt; omega
    · rfl

/-- A vector as a row: the reshape and the broadcast along a new first axis are one array. -/
theorem row_spell {a : ℕ} (x : (⟨1, ![a]⟩ : Shape).Idx → α) (hc : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x hc = broadcastInDim ⟨2, ![1, a]⟩ ![1] hb x := by
  funext y
  obtain ⟨u, i, rfl⟩ : ∃ (u : Fin 1) (i : Fin a), y = ix2 u i := ⟨y 0, y 1, eq_ix2 y⟩
  rw [shapeCast_a_1a_apply]
  refine Eq.symm (broadcastInDim_apply ![1] hb x (ix2 u i) (ix1 i) fun ax => ?_)
  match ax with
  | ⟨0, _⟩ =>
    show i.val = if a = 1 then 0 else i.val
    split
    · have := i.isLt; omega
    · rfl

end Cert.RowSpell

end
-- ==== Proof.Region1.lean ====
import proofs.«125506_j15659450761582_1_alg».proof.Proof.Gen.KernelIdeal.Frame
import proofs.«125506_j15659450761582_1_alg».proof.Proof.LibRowBlock
import proofs.«125506_j15659450761582_1_alg».proof.Proof.LibRowBlockGate
import proofs.«125506_j15659450761582_1_alg».proof.Proof.LibRowSpell
import Idealize.ShloMosaic.Lib.Pipeline.Value
import Idealize.ShloMosaic.Lib.Layout

set_option maxRecDepth 16384

noncomputable section

/-! # The second launch: incoming-degree scale, bias and rectifier on the aggregated hidden features

The aggregated features `a` (50000 × 256) are walked in 50 blocks of 1000 rows. At block `t`, row `r` of the block is
scaled by entry `r` of the block's slice of the column `s` (50000 × 1), the bias row `b` (1 × 256) is added to every
row, and negative entries are replaced by zero. Row by row that is the whole-array computation
`max (a ⊙ (s across the columns) + (b down the rows), 0)`; point `t` writes back block `t` of it and the blocks tile
the rows. -/

namespace Cert.KernelIdeal.Region1

open Cert.KernelIdeal Cert.KernelIdeal.Gen
open Idealize.ShloMosaic Idealize.ShloMosaic.TcCoe Idealize.ShloMosaic.Layout Idealize.ShloMosaic.ValueIdx
open Idealize.SL.Sem
open Idealize.ShloMosaic.Pipeline (Dat Cfg Window)

/-- The whole-array computation: scale each row, add the bias row, clamp below at zero. -/
def scaleBiasRelu (hs : S50000x1.BroadcastsInDim S50000x256 (![0, 1] : Fin 2 → Fin 2))
    (hr : S1x256.BroadcastsInDim S50000x256 (![0, 1] : Fin 2 → Fin 2))
    (h0 : S_.BroadcastsInDim S50000x256 (![] : Fin 0 → Fin 2))
    (a : FVec Ideal S50000x256 .f32) (s : FVec Ideal S50000x1 .f32) (b : FVec Ideal S1x256 .f32) :
    FVec Ideal S50000x256 .f32 :=
  maximumf (addf (mulf a (broadcastInDim S50000x256 ![0, 1] hs s)) (broadcastInDim S50000x256 ![0, 1] hr b))
    (broadcastInDim S50000x256 ![] h0 (constant (F := Ideal) S_ .f32 0x00000000#32))

theorem tiles_a : Tiles S1000x256 S50000x256 0 cfg1.N := by decide
theorem tiles_s : Tiles S1000x1 S50000x1 0 cfg1.N := by decide

/-- What the body stores at a block of rows is that block of the whole-array computation. -/
theorem pay_rows (hs : S50000x1.BroadcastsInDim S50000x256 (![0, 1] : Fin 2 → Fin 2))
    (hr : S1x256.BroadcastsInDim S50000x256 (![0, 1] : Fin 2 → Fin 2))
    (h0 : S_.BroadcastsInDim S50000x256 (![] : Fin 0 → Fin 2)) (t : Fin cfg1.N)
    (a : FVec Ideal S50000x256 .f32) (s : FVec Ideal S50000x1 .f32) (b : FVec Ideal S1x256 .f32) :
    k1_pay1 (F := Ideal) (block S1000x256 S50000x256 0 cfg1.N t a tiles_a) (block S1000x1 S50000x1 0 cfg1.N t s tiles_s) b
      = block S1000x256 S50000x256 0 cfg1.N t (scaleBiasRelu hs hr h0 a s b) tiles_a := by
  unfold k1_pay1 scaleBiasRelu
  dsimp only
  rw [shapeCast_self, shapeCast_self, shapeCast_self,
    Cert.RowBlock.column_rows (R := 1000) (M := 50000) (T := cfg1.N) (N := 256) tiles_s tiles_a t broadcasts_S1000x1_S1000x256 hs s,
    Cert.RowSpell.row_rows (R := 1000) (M := 50000) (T := cfg1.N) (N := 256) tiles_a t broadcasts_S1x256_S1000x256 hr b,
    Cert.RowBlock.splat_rows (R := 1000) (M := 50000) (T := cfg1.N) (N := 256) tiles_a t h0 0x00000000#32]
  rfl

theorem hz : (![0, 0] : Fin 2 → Nat) = fun _ => 0 := funext fun a => by fin_cases a <;> rfl

/-- The printed index maps, decided over the grid: the row-blocked windows sit at block `(t, 0)`, the bias row at
    `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The block of the aggregated features at point `t` is rows `1000 t …` of the array. -/
theorem blk_a (c : Dev nD) (t : Fin cfg1.N) :
    (iblk1 V c 0 t : Vec Ideal S1000x256 .f32) = block S1000x256 S50000x256 0 cfg1.N t (V c main_v30) tiles_a := by
  funext j
  show V c main_v30 (((cfg1.win 0).blk t).view.emb j) = V c main_v30 (tiles_a.idx t j)
  refine congrArg (V c main_v30) (funext fun a => Fin.ext ?_)
  obtain ⟨e0, e1, -⟩ := idx_facts t
  match a with
  | ⟨0, _⟩ => show win1_0.index t (0 : Fin 2) * 1000 + 1 * (j 0).val = t.val * 1000 + (j 0).val; rw [e0]; omega
  | ⟨1, _⟩ => show win1_0.index t (1 : Fin 2) * 256 + 1 * (j 1).val = (j 1).val; rw [e1]; omega

/-- The block of the scale column at point `t` is rows `1000 t …` of the column. -/
theorem blk_s (c : Dev nD) (t : Fin cfg1.N) :
    (iblk1 V c 1 t : Vec Ideal S1000x1 .f32) = block S1000x1 S50000x1 0 cfg1.N t (V c main_v31) tiles_s := by
  funext j
  show V c main_v31 (((cfg1.win 1).blk t).view.emb j) = V c main_v31 (tiles_s.idx t j)
  refine congrArg (V c main_v31) (funext fun a => Fin.ext ?_)
  obtain ⟨-, -, e0, e1, -⟩ := idx_facts t
  match a with
  | ⟨0, _⟩ => show win1_1.index t (0 : Fin 2) * 1000 + 1 * (j 0).val = t.val * 1000 + (j 0).val; rw [e0]; omega
  | ⟨1, _⟩ => show win1_1.index t (1 : Fin 2) * 1 + 1 * (j 1).val = (j 1).val; rw [e1]; omega

/-- The block of the bias row at every point is the whole row. -/
theorem blk_b (c : Dev nD) (t : Fin cfg1.N) : (iblk1 V c 2 t : Vec Ideal S1x256 .f32) = V c main_v32 := by
  funext j
  show V c main_v32 (((cfg1.win 2).blk t).view.emb j) = V c main_v32 j
  refine congrArg (V c main_v32) (funext fun a => Fin.ext ?_)
  obtain ⟨-, -, -, -, e0, e1, -⟩ := idx_facts t
  match a with
  | ⟨0, _⟩ => show win1_2.index t (0 : Fin 2) * 1 + 1 * (j 0).val = (j 0).val; rw [e0]; omega
  | ⟨1, _⟩ => show win1_2.index t (1 : Fin 2) * 256 + 1 * (j 1).val = (j 1).val; rw [e1]; omega

/-- Reading the output window's block `t` off an array takes rows `1000 t …` of it. -/
theorem read_y (t : Fin cfg1.N) (G : FVec Ideal S50000x256 .f32) :
    (((cfg1.win 3).blk t).view.read (Elt Ideal) G : Vec Ideal S1000x256 .f32) = block S1000x256 S50000x256 0 cfg1.N t G tiles_a := by
  funext j
  show G (((cfg1.win 3).blk t).view.emb j) = G (tiles_a.idx t j)
  refine congrArg G (funext fun a => Fin.ext ?_)
  obtain ⟨-, -, -, -, -, -, e0, e1⟩ := idx_facts t
  match a with
  | ⟨0, _⟩ => show win1_3.index t (0 : Fin 2) * 1000 + 1 * (j 0).val = t.val * 1000 + (j 0).val; rw [e0]; omega
  | ⟨1, _⟩ => show win1_3.index t (1 : Fin 2) * 256 + 1 * (j 1).val = (j 1).val; rw [e1]; omega

/-- What point `t` writes back is block `t` of the whole-array computation of the arrays the launch finds. -/
theorem flushed_eq (hs : S50000x1.BroadcastsInDim S50000x256 (![0, 1] : Fin 2 → Fin 2))
    (hr : S1x256.BroadcastsInDim S50000x256 (![0, 1] : Fin 2 → Fin 2))
    (h0 : S_.BroadcastsInDim S50000x256 (![] : Fin 0 → Fin 2)) (c : Dev nD) (t : Fin cfg1.N) :
    (dat1 V c).flushed 3 t
      = ((cfg1.win 3).blk t).view.read (Elt Ideal) (scaleBiasRelu hs hr h0 (V c main_v30) (V c main_v31) (V c main_v32)) := by
  show (cfg1.win 3).cut (grid1.coords t) ((dat1 V c).after 3 t) = _
  rw [after1_3]
  unfold out1_3
  rw [View.canon_unit_zero hz]
  simp only [View.ld_unit_zero (S := S1000x256) hz, View.ld_unit_zero (S := S1000x1) hz, View.ld_unit_zero (S := S1x256) hz]
  rw [blk_a V c t, blk_s V c t, blk_b V c t, pay_rows hs hr h0 t, read_y t]
  rfl

/-- An index of the output array is in point `t`'s block iff its row is among rows `1000 t … 1000 t + 999`. -/
theorem mem_blk (t : Fin cfg1.N) (i : S50000x256.Idx) :
    i ∈ ((cfg1.win 3).blk t).view.set ↔ ∀ a : Fin 2, win1_3.index t a * S1000x256.size a ≤ (i a).val ∧ (i a).val < win1_3.index t a * S1000x256.size a + S1000x256.size a := by
  show i ∈ ((View.whole main_v33).slice (win1_3.rect t)).set ↔ _
  rw [View.set_slice_whole, Rect.mem_set_unit]
  exact Iff.rfl

/-- Every row lies in the block of its thousand. -/
theorem cover (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 50 := N_1
  refine ⟨⟨(i 0).val / 1000, by rw [hN]; omega⟩, flush1_3 _, ?_⟩
  rw [mem_blk]
  obtain ⟨-, -, -, -, -, -, e0, e1⟩ := idx_facts ⟨(i 0).val / 1000, by rw [hN]; omega⟩
  intro a
  match a with
  | ⟨0, _⟩ =>
    show win1_3.index _ (0 : Fin 2) * 1000 ≤ (i 0).val ∧ (i 0).val < win1_3.index _ (0 : Fin 2) * 1000 + 1000
    rw [e0]; show (i 0).val / 1000 * 1000 ≤ (i 0).val ∧ (i 0).val < (i 0).val / 1000 * 1000 + 1000; omega
  | ⟨1, _⟩ =>
    show win1_3.index _ (1 : Fin 2) * 256 ≤ (i 1).val ∧ (i 1).val < win1_3.index _ (1 : Fin 2) * 256 + 256
    rw [e1]; omega

/-- THE OUTPUT ARRAY after the launch: the whole-array computation of the arrays the launch finds. -/
theorem final (hs : S50000x1.BroadcastsInDim S50000x256 (![0, 1] : Fin 2 → Fin 2))
    (hr : S1x256.BroadcastsInDim S50000x256 (![0, 1] : Fin 2 → Fin 2))
    (h0 : S_.BroadcastsInDim S50000x256 (![] : Fin 0 → Fin 2)) (c : Dev nD) :
    (dat1 V c).arrAt 3 cfg1.N = scaleBiasRelu hs hr h0 (V c main_v30) (V c main_v31) (V c main_v32) :=
  (dat1 V c).arrAt_eq_of_cover 3 _ (fun t _ => flushed_eq V hs hr h0 c t) cover

end Cert.KernelIdeal.Region1

end
-- ==== Proof.Region2.lean ====
import proofs.«125506_j15659450761582_1_alg».proof.Proof.Gen.KernelIdeal.Frame
import proofs.«125506_j15659450761582_1_alg».proof.Proof.LibRowBlock
import proofs.«125506_j15659450761582_1_alg».proof.Proof.LibRowBlockGate
import Idealize.ShloMosaic.Lib.Pipeline.Value
import Idealize.ShloMosaic.Lib.Layout

set_option maxRecDepth 16384

noncomputable section

/-! # The third launch: rows of `h · W2`, each scaled by its node's outgoing-degree factor

The hidden features `h` (50000 × 256) are walked in 50 blocks of 1000 rows. At block `t` rows `1000 t … 1000 t + 999`
of `h` are multiplied by the whole of `W2` (256 × 40), and row `r` of the product is scaled by entry `r` of the block's
slice of the column `s` (50000 × 1). Row by row that is `(h · W2) ⊙ (s copied across the 40 columns)` on whole arrays;
point `t` writes back block `t` of it and the blocks tile the rows. -/

namespace Cert.KernelIdeal.Region2

open Cert.KernelIdeal Cert.KernelIdeal.Gen
open Idealize.ShloMosaic Idealize.ShloMosaic.TcCoe Idealize.ShloMosaic.Layout Idealize.ShloMosaic.ValueIdx
open Idealize.SL.Sem
open Idealize.ShloMosaic.Pipeline (Dat Cfg Window)

/-- The whole-array computation: the product of `h` with the weights, each row scaled by the column's entry. -/
def scaledProduct (d : DotDims S50000x256 S256x40 S50000x40)
    (hb : S50000x1.BroadcastsInDim S50000x40 (![0, 1] : Fin 2 → Fin 2))
    (h : FVec Ideal S50000x256 .f32) (w : FVec Ideal S256x40 .f32) (s : FVec Ideal S50000x1 .f32) :
    FVec Ideal S50000x40 .f32 :=
  mulf (Host.dotGeneral d none h w) (broadcastInDim S50000x40 ![0, 1] hb s)

theorem tiles_h : Tiles S1000x256 S50000x256 0 cfg2.N := by decide
theorem tiles_s : Tiles S1000x1 S50000x1 0 cfg2.N := by decide
theorem tiles_y : Tiles S1000x40 S50000x40 0 cfg2.N := by decide

/-- What the body stores at a block of rows is that block of the whole-array computation. -/
theorem pay_rows (d : DotDims S50000x256 S256x40 S50000x40) (hd : d = DotDims.plain 50000 256 40)
    (hb : S50000x1.BroadcastsInDim S50000x40 (![0, 1] : Fin 2 → Fin 2)) (t : Fin cfg2.N)
    (h : FVec Ideal S50000x256 .f32) (w : FVec Ideal S256x40 .f32) (s : FVec Ideal S50000x1 .f32) :
    k2_pay1 (F := Ideal) (block S1000x256 S50000x256 0 cfg2.N t h tiles_h) w (block S1000x1 S50000x1 0 cfg2.N t s tiles_s)
      = block S1000x40 S50000x40 0 cfg2.N t (scaledProduct d hb h w s) tiles_y := by
  unfold k2_pay1 scaledProduct
  dsimp only
  rw [shapeCast_self, shapeCast_self,
    Cert.RowBlock.dot_rows_trunc (R := 1000) (M := 50000) (T := cfg2.N) (K := 256) (N := 40) bitsLt_bf16_f32 bitsLt_bf16_f32
      dot_S1000x256_S256x40_S1000x40_1_0_0_1_n_n rfl d hd tiles_h tiles_y none none t h w,
    Cert.RowBlock.column_rows (R := 1000) (M := 50000) (T := cfg2.N) (N := 40) tiles_s tiles_y t broadcasts_S1000x1_S1000x40 hb s]
  rfl

theorem hz : (![0, 0] : Fin 2 → Nat) = fun _ => 0 := funext fun a => by fin_cases a <;> rfl

/-- The printed index maps, decided over the grid: the row-blocked windows sit at block `(t, 0)`, the weights at
    `(0, 0)`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The block of `h` at point `t` is rows `1000 t …` of the array. -/
theorem blk_h (c : Dev nD) (t : Fin cfg2.N) :
    (iblk2 V c 0 t : Vec Ideal S1000x256 .f32) = block S1000x256 S50000x256 0 cfg2.N t (V c main_v33) tiles_h := by
  funext j
  show V c main_v33 (((cfg2.win 0).blk t).view.emb j) = V c main_v33 (tiles_h.idx t j)
  refine congrArg (V c main_v33) (funext fun a => Fin.ext ?_)
  obtain ⟨e0, e1, -⟩ := idx_facts t
  match a with
  | ⟨0, _⟩ => show win2_0.index t (0 : Fin 2) * 1000 + 1 * (j 0).val = t.val * 1000 + (j 0).val; rw [e0]; omega
  | ⟨1, _⟩ => show win2_0.index t (1 : Fin 2) * 256 + 1 * (j 1).val = (j 1).val; rw [e1]; omega

/-- The block of the weights at every point is the whole array. -/
theorem blk_w (c : Dev nD) (t : Fin cfg2.N) : (iblk2 V c 1 t : Vec Ideal S256x40 .f32) = V c main_arg5 := by
  funext j
  show V c main_arg5 (((cfg2.win 1).blk t).view.emb j) = V c main_arg5 j
  refine congrArg (V c main_arg5) (funext fun a => Fin.ext ?_)
  obtain ⟨-, -, e0, e1, -⟩ := idx_facts t
  match a with
  | ⟨0, _⟩ => show win2_1.index t (0 : Fin 2) * 256 + 1 * (j 0).val = (j 0).val; rw [e0]; omega
  | ⟨1, _⟩ => show win2_1.index t (1 : Fin 2) * 40 + 1 * (j 1).val = (j 1).val; rw [e1]; omega

/-- The block of the scale column at point `t` is rows `1000 t …` of the column. -/
theorem blk_s (c : Dev nD) (t : Fin cfg2.N) :
    (iblk2 V c 2 t : Vec Ideal S1000x1 .f32) = block S1000x1 S50000x1 0 cfg2.N t (V c main_v34) tiles_s := by
  funext j
  show V c main_v34 (((cfg2.win 2).blk t).view.emb j) = V c main_v34 (tiles_s.idx t j)
  refine congrArg (V c main_v34) (funext fun a => Fin.ext ?_)
  obtain ⟨-, -, -, -, e0, e1, -⟩ := idx_facts t
  match a with
  | ⟨0, _⟩ => show win2_2.index t (0 : Fin 2) * 1000 + 1 * (j 0).val = t.val * 1000 + (j 0).val; rw [e0]; omega
  | ⟨1, _⟩ => show win2_2.index t (1 : Fin 2) * 1 + 1 * (j 1).val = (j 1).val; rw [e1]; omega

/-- Reading the output window's block `t` off an array takes rows `1000 t …` of it. -/
theorem read_y (t : Fin cfg2.N) (G : FVec Ideal S50000x40 .f32) :
    (((cfg2.win 3).blk t).view.read (Elt Ideal) G : Vec Ideal S1000x40 .f32) = block S1000x40 S50000x40 0 cfg2.N t G tiles_y := by
  funext j
  show G (((cfg2.win 3).blk t).view.emb j) = G (tiles_y.idx t j)
  refine congrArg G (funext fun a => Fin.ext ?_)
  obtain ⟨-, -, -, -, -, -, e0, e1⟩ := idx_facts t
  match a with
  | ⟨0, _⟩ => show win2_3.index t (0 : Fin 2) * 1000 + 1 * (j 0).val = t.val * 1000 + (j 0).val; rw [e0]; omega
  | ⟨1, _⟩ => show win2_3.index t (1 : Fin 2) * 40 + 1 * (j 1).val = (j 1).val; rw [e1]; omega

/-- What point `t` writes back is block `t` of the whole-array computation of the arrays the launch finds. -/
theorem flushed_eq (d : DotDims S50000x256 S256x40 S50000x40) (hd : d = DotDims.plain 50000 256 40)
    (hb : S50000x1.BroadcastsInDim S50000x40 (![0, 1] : Fin 2 → Fin 2)) (c : Dev nD) (t : Fin cfg2.N) :
    (dat2 V c).flushed 3 t
      = ((cfg2.win 3).blk t).view.read (Elt Ideal) (scaledProduct d hb (V c main_v33) (V c main_arg5) (V c main_v34)) := by
  show (cfg2.win 3).cut (grid2.coords t) ((dat2 V c).after 3 t) = _
  rw [after2_3]
  unfold out2_3
  rw [View.canon_unit_zero hz]
  simp only [View.ld_unit_zero (S := S1000x256) hz, View.ld_unit_zero (S := S256x40) hz, View.ld_unit_zero (S := S1000x1) hz]
  rw [blk_h V c t, blk_w V c t, blk_s V c t, pay_rows d hd hb t, read_y t]
  rfl

/-- An index of the output array is in point `t`'s block iff its row is among rows `1000 t … 1000 t + 999`. -/
theorem mem_blk (t : Fin cfg2.N) (i : S50000x40.Idx) :
    i ∈ ((cfg2.win 3).blk t).view.set ↔ ∀ a : Fin 2, win2_3.index t a * S1000x40.size a ≤ (i a).val ∧ (i a).val < win2_3.index t a * S1000x40.size a + S1000x40.size a := by
  show i ∈ ((View.whole main_v35).slice (win2_3.rect t)).set ↔ _
  rw [View.set_slice_whole, Rect.mem_set_unit]
  exact Iff.rfl

/-- Every row lies in the block of its thousand. -/
theorem cover (i : S50000x40.Idx) : ∃ t : Fin cfg2.N, (cfg2.win 3).flush t = true ∧ i ∈ ((cfg2.win 3).blk t).view.set := by
  have hi0 : (i 0).val < 50000 := (i 0).isLt
  have hi1 : (i 1).val < 40 := (i 1).isLt
  have hN : cfg2.N = 50 := N_2
  refine ⟨⟨(i 0).val / 1000, by rw [hN]; omega⟩, flush2_3 _, ?_⟩
  rw [mem_blk]
  obtain ⟨-, -, -, -, -, -, e0, e1⟩ := idx_facts ⟨(i 0).val / 1000, by rw [hN]; omega⟩
  intro a
  match a with
  | ⟨0, _⟩ =>
    show win2_3.index _ (0 : Fin 2) * 1000 ≤ (i 0).val ∧ (i 0).val < win2_3.index _ (0 : Fin 2) * 1000 + 1000
    rw [e0]; show (i 0).val / 1000 * 1000 ≤ (i 0).val ∧ (i 0).val < (i 0).val / 1000 * 1000 + 1000; omega
  | ⟨1, _⟩ =>
    show win2_3.index _ (1 : Fin 2) * 40 ≤ (i 1).val ∧ (i 1).val < win2_3.index _ (1 : Fin 2) * 40 + 40
    rw [e1]; omega

/-- THE OUTPUT ARRAY after the launch: the whole-array computation of the arrays the launch finds. -/
theorem final (d : DotDims S50000x256 S256x40 S50000x40) (hd : d = DotDims.plain 50000 256 40)
    (hb : S50000x1.BroadcastsInDim S50000x40 (![0, 1] : Fin 2 → Fin 2)) (c : Dev nD) :
    (dat2 V c).arrAt 3 cfg2.N = scaledProduct d hb (V c main_v33) (V c main_arg5) (V c main_v34) :=
  (dat2 V c).arrAt_eq_of_cover 3 _ (fun t _ => flushed_eq V d hd hb c t) cover

end Cert.KernelIdeal.Region2

end
-- ==== Proof.LibRowReduce.lean ====
import Idealize.ShloMosaic.PureOps.Ideal.Laws
import Idealize.ShloMosaic.PureOps.Reduce
import Idealize.ShloMosaic.Lib.ValueIdx
import Idealize.ShloMosaic.Lib.Layout
import Idealize.ShloMosaic.Lib.Pipeline.Value

noncomputable section

open scoped BigOperators

/-! # Row blocks: a row's maximum and a row's sum, kept as a column

An array of `M = T · R` rows and `N` columns is cut into `T` blocks of `R` rows. Reducing each row of a block over
its `N` columns, and keeping the result as a column `[R, 1]`, gives the block of rows `t·R … t·R + R − 1` of the column
`[M, 1]` obtained by reducing each row of the whole array: row `r` of block `t` is row `t·R + r` of the array, and
both reductions range over that row's `N` entries. On the extended reals a maximum taken from `−∞` is the row's own
maximum (the host's extra `max (−∞) ·` changes nothing), and a sum taken from `0` is the row's own sum. -/

namespace Cert.RowReduce

open Idealize.ShloMosaic Idealize.ShloMosaic.ValueIdx Idealize.ShloMosaic.Layout

variable {R M T N : ℕ}

/-- The word `0xFF800000` is `−∞`. -/
theorem ofBits_neg_inf : Ideal.ofBits .f32 0xFF800000#32 = ⊥ := by simp [Ideal.ofBits, Ideal.ieee]

/-- Entry `k` of row `p` of block `t` is entry `k` of row `t·R + p` of the whole array. -/
theorem idx_lift (hN : Tiles ⟨2, ![R, N]⟩ ⟨2, ![M, N]⟩ 0 T) (t : Fin T)
    (hr : Shape.Reduces ⟨2, ![R, N]⟩ [1] ⟨1, ![R]⟩) (hR : Shape.Reduces ⟨2, ![M, N]⟩ [1] ⟨1, ![M]⟩)
    (p : Fin R) (g : Fin M) (hg : g.val = t.val * R + p.val) (k : Fin N) :
    hN.idx t (hr.lift (ix1 p) k) = hR.lift (ix1 g) k := by
  funext a
  apply Fin.ext
  match a with
  | ⟨0, _⟩ => exact hg.symm
  | ⟨1, _⟩ => rfl

/-- A `[R]` vector kept as the column `[R, 1]`, at `(p, q)`. -/
theorem column_apply {α : Type} (x : (⟨1, ![R]⟩ : Shape).Idx → α) (hc : (⟨1, ![R]⟩ : Shape).ShapeCasts ⟨2, ![R, 1]⟩)
    (p : Fin R) (q : Fin 1) : shapeCast ⟨2, ![R, 1]⟩ x hc (ix2 p q) = x (ix1 p) :=
  shapeCast_apply x hc _ _ (by
    have hq : q.val = 0 := by omega
    rw [Shape.rowMajor_val_two, Shape.rowMajor_val_one]
    show p.val = p.val * 1 + q.val
    rw [hq, Nat.mul_one, Nat.add_zero])

/-- The host's column `[M, 1]` of a `[M]` vector, at a block's entry `(p, q)`: the vector at row `t·R + p`. -/
theorem column_block_apply {α : Type} (h1 : Tiles ⟨2, ![R, 1]⟩ ⟨2, ![M, 1]⟩ 0 T) (t : Fin T)
    (hb1 : (⟨1, ![M]⟩ : Shape).BroadcastsInDim ⟨2, ![M, 1]⟩ (![0] : Fin 1 → Fin 2))
    (x : (⟨1, ![M]⟩ : Shape).Idx → α) (p : Fin R) (q : Fin 1) :
    block ⟨2, ![R, 1]⟩ ⟨2, ![M, 1]⟩ 0 T t (broadcastInDim ⟨2, ![M, 1]⟩ ![0] hb1 x) h1 (ix2 p q)
      = x (ix1 (h1.idx t (ix2 p q) 0)) := by
  rw [block_apply]
  refine broadcastInDim_apply ![0] hb1 x (h1.idx t (ix2 p q)) (ix1 (h1.idx t (ix2 p q) 0)) fun a => ?_
  match a with
  | ⟨0, _⟩ =>
    show t.val * R + p.val = if M = 1 then 0 else t.val * R + p.val
    split
    · have hlt : t.val * R + p.val < M := (h1.idx t (ix2 p q) 0).isLt
      omega
    · rfl

/-- Row maxima: the maximum over the columns of each row of a block, from `−∞`, kept as a column, is the block of the
    whole array's row maxima as the host takes them (a reduce from `−∞`, then once more `max` with `−∞`). -/
theorem rowmax_rows (hN : Tiles ⟨2, ![R, N]⟩ ⟨2, ![M, N]⟩ 0 T) (h1 : Tiles ⟨2, ![R, 1]⟩ ⟨2, ![M, 1]⟩ 0 T) (t : Fin T)
    (hr : Shape.Reduces ⟨2, ![R, N]⟩ [1] ⟨1, ![R]⟩) (hφ : FKind.Formats .f32)
    (hacc : (0xFF800000#32 : BitVec 32) = FKind.maximumf.neutral .f32 hφ)
    (hc : (⟨1, ![R]⟩ : Shape).ShapeCasts ⟨2, ![R, 1]⟩)
    (hR' : Shape.ReducesTo ⟨2, ![M, N]⟩ [1] ⟨1, ![M]⟩) (hR : Shape.Reduces ⟨2, ![M, N]⟩ [1] ⟨1, ![M]⟩)
    (hu : 0 < (⟨0, ![]⟩ : Shape).numel)
    (hb0 : (⟨0, ![]⟩ : Shape).BroadcastsInDim ⟨1, ![M]⟩ (![] : Fin 0 → Fin 1))
    (hb1 : (⟨1, ![M]⟩ : Shape).BroadcastsInDim ⟨2, ![M, 1]⟩ (![0] : Fin 1 → Fin 2))
    (X : FVec Ideal ⟨2, ![M, N]⟩ .f32) :
    shapeCast ⟨2, ![R, 1]⟩
        (multiReduction .maximumf [1] ⟨1, ![R]⟩ (block ⟨2, ![R, N]⟩ ⟨2, ![M, N]⟩ 0 T t X hN) 0xFF800000#32 hr hφ hacc) hc
      = block ⟨2, ![R, 1]⟩ ⟨2, ![M, 1]⟩ 0 T t
          (broadcastInDim ⟨2, ![M, 1]⟩ ![0] hb1
            (maximumf (broadcastInDim ⟨1, ![M]⟩ ![] hb0 (constant (F := Ideal) ⟨0, ![]⟩ .f32 0xFF800000#32))
              (Host.reduce FloatOps.maximumf X (constant (F := Ideal) ⟨0, ![]⟩ .f32 0xFF800000#32) hR' hu))) h1 := by
  funext y
  obtain ⟨p, q, rfl⟩ : ∃ (p : Fin R) (q : Fin 1), y = ix2 p q := ⟨y 0, y 1, eq_ix2 y⟩
  rw [column_apply, column_block_apply, Ideal.multiReduction_maximumf_single]
  show _ = FloatOps.maximumf (Ideal.ofBits .f32 0xFF800000#32)
      (Host.reduce FloatOps.maximumf X (constant (F := Ideal) ⟨0, ![]⟩ .f32 0xFF800000#32) hR' hu (ix1 (h1.idx t (ix2 p q) 0)))
  rw [Host.reduce_eq_fold_single FloatOps.maximumf X _ hR' hR hu, Ideal.maximumf_def, ofBits_neg_inf, max_eq_right bot_le]
  show Finset.fold max (Ideal.ofBits .f32 0xFF800000#32) _ _ = Finset.fold FloatOps.maximumf (Ideal.ofBits .f32 0xFF800000#32) _ _
  refine congrArg (fun f => Finset.fold max (Ideal.ofBits .f32 0xFF800000#32) f Finset.univ) (funext fun k => ?_)
  show X (hN.idx t (hr.lift (ix1 p) k)) = X (hR.lift (ix1 (h1.idx t (ix2 p q) 0)) k)
  rw [idx_lift hN t hr hR p (h1.idx t (ix2 p q) 0) rfl k]

/-- Row sums: the sum over the columns of each row of a block, kept as a column, is the block of the whole array's row
    sums as the host takes them (a reduce from `0`). -/
theorem rowsum_rows (hN : Tiles ⟨2, ![R, N]⟩ ⟨2, ![M, N]⟩ 0 T) (h1 : Tiles ⟨2, ![R, 1]⟩ ⟨2, ![M, 1]⟩ 0 T) (t : Fin T)
    (hr : Shape.Reduces ⟨2, ![R, N]⟩ [1] ⟨1, ![R]⟩) (hφ : FKind.Formats .f32)
    (hacc : (0x00000000#32 : BitVec 32) = FKind.add.neutral .f32 hφ)
    (hc : (⟨1, ![R]⟩ : Shape).ShapeCasts ⟨2, ![R, 1]⟩)
    (hR' : Shape.ReducesTo ⟨2, ![M, N]⟩ [1] ⟨1, ![M]⟩) (hR : Shape.Reduces ⟨2, ![M, N]⟩ [1] ⟨1, ![M]⟩)
    (hu : 0 < (⟨0, ![]⟩ : Shape).numel)
    (hb1 : (⟨1, ![M]⟩ : Shape).BroadcastsInDim ⟨2, ![M, 1]⟩ (![0] : Fin 1 → Fin 2))
    (X : FVec Ideal ⟨2, ![M, N]⟩ .f32) :
    shapeCast ⟨2, ![R, 1]⟩
        (multiReduction .add [1] ⟨1, ![R]⟩ (block ⟨2, ![R, N]⟩ ⟨2, ![M, N]⟩ 0 T t X hN) 0x00000000#32 hr hφ hacc) hc
      = block ⟨2, ![R, 1]⟩ ⟨2, ![M, 1]⟩ 0 T t
          (broadcastInDim ⟨2, ![M, 1]⟩ ![0] hb1
            (Host.reduceAdd X (constant (F := Ideal) ⟨0, ![]⟩ .f32 0x00000000#32) hR' hu)) h1 := by
  funext y
  obtain ⟨p, q, rfl⟩ : ∃ (p : Fin R) (q : Fin 1), y = ix2 p q := ⟨y 0, y 1, eq_ix2 y⟩
  rw [column_apply, column_block_apply, Ideal.multiReduction_add_single]
  show _ = Ideal.hostReduceAdd hR' X (Ideal.ofBits .f32 0x00000000#32) (ix1 (h1.idx t (ix2 p q) 0))
  rw [Ideal.hostReduceAdd_single hR' hR, Ideal.ofBits_zero_f32, zero_add]
  refine Finset.sum_congr rfl fun k _ => ?_
  show X (hN.idx t (hr.lift (ix1 p) k)) = X (hR.lift (ix1 (h1.idx t (ix2 p q) 0)) k)
  rw [idx_lift hN t hr hR p (h1.idx t (ix2 p q) 0) rfl k]

/-- The logarithm of a block of rows is the block of the host's logarithm. -/
theorem log_rows {φ : FTy} (hN : Tiles ⟨2, ![R, N]⟩ ⟨2, ![M, N]⟩ 0 T) (t : Fin T) (X : FVec Ideal ⟨2, ![M, N]⟩ φ) :
    log (block ⟨2, ![R, N]⟩ ⟨2, ![M, N]⟩ 0 T t X hN) = block ⟨2, ![R, N]⟩ ⟨2, ![M, N]⟩ 0 T t (Host.log X) hN := rfl

end Cert.RowReduce

end
-- ==== Proof.Region3.lean ====
import proofs.«125506_j15659450761582_1_alg».proof.Proof.Gen.KernelIdeal.Frame
import proofs.«125506_j15659450761582_1_alg».proof.Proof.LibRowBlock
import proofs.«125506_j15659450761582_1_alg».proof.Proof.LibRowBlockGate
import proofs.«125506_j15659450761582_1_alg».proof.Proof.LibRowSpell
import proofs.«125506_j15659450761582_1_alg».proof.Proof.LibRowReduce
import Idealize.ShloMosaic.Lib.Pipeline.Value
import Idealize.ShloMosaic.Lib.Layout

set_option maxRecDepth 16384

noncomputable section

/-! # The fourth launch: incoming-degree scale, bias, rectifier and the logarithm of the softmax over each row

The aggregated class scores `a` (50000 × 40) are walked in 50 blocks of 1000 rows. At block `t` row `r` is scaled by
entry `r` of the block's slice of the column `s` (50000 × 1), the bias row `b` (1 × 40) is added and negative entries
are replaced by zero, giving `v`. Then, per row: `μ` is the row's maximum, `z = v − μ`, `σ` is the sum of `e^z` over
the row, and the row becomes `z − log σ`. Every step works inside one row, so on whole arrays it is the same
computation with the row maximum and the row sum taken by the host's reductions; point `t` writes back block `t` of
it and the blocks tile the rows. -/

namespace Cert.KernelIdeal.Region3

open Cert.KernelIdeal Cert.KernelIdeal.Gen
open Idealize.ShloMosaic Idealize.ShloMosaic.TcCoe Idealize.ShloMosaic.Layout Idealize.ShloMosaic.ValueIdx
open Idealize.SL.Sem
open Idealize.ShloMosaic.Pipeline (Dat Cfg Window)

/-- Scale each row, add the bias row, clamp below at zero. -/
def scaleBiasRelu (hs : S50000x1.BroadcastsInDim S50000x40 (![0, 1] : Fin 2 → Fin 2))
    (hr : S1x40.BroadcastsInDim S50000x40 (![0, 1] : Fin 2 → Fin 2))
    (h0 : S_.BroadcastsInDim S50000x40 (![] : Fin 0 → Fin 2))
    (a : FVec Ideal S50000x40 .f32) (s : FVec Ideal S50000x1 .f32) (b : FVec Ideal S1x40 .f32) :
    FVec Ideal S50000x40 .f32 :=
  maximumf (addf (mulf a (broadcastInDim S50000x40 ![0, 1] hs s)) (broadcastInDim S50000x40 ![0, 1] hr b))
    (broadcastInDim S50000x40 ![] h0 (constant (F := Ideal) S_ .f32 0x00000000#32))

/-- Each row minus its maximum (the maximum taken by the host: a reduce from `−∞`, then `max` with `−∞` once more). -/
def shifted (hR' : S50000x40.ReducesTo [1] S50000) (hu : 0 < S_.numel)
    (hb0 : S_.BroadcastsInDim S50000 (![] : Fin 0 → Fin 1))
    (hb1 : S50000.BroadcastsInDim S50000x1 (![0] : Fin 1 → Fin 2))
    (hs : S50000x1.BroadcastsInDim S50000x40 (![0, 1] : Fin 2 → Fin 2))
    (v : FVec Ideal S50000x40 .f32) : FVec Ideal S50000x40 .f32 :=
  subf v (broadcastInDim S50000x40 ![0, 1] hs
    (broadcastInDim S50000x1 ![0] hb1
      (maximumf (broadcastInDim S50000 ![] hb0 (constant (F := Ideal) S_ .f32 0xFF800000#32))
        (Host.reduce FloatOps.maximumf v (constant (F := Ideal) S_ .f32 0xFF800000#32) hR' hu))))

/-- A shifted row minus the logarithm of the sum of its exponentials. -/
def normalised (hR' : S50000x40.ReducesTo [1] S50000) (hu : 0 < S_.numel)
    (hb1 : S50000.BroadcastsInDim S50000x1 (![0] : Fin 1 → Fin 2))
    (hs : S50000x1.BroadcastsInDim S50000x40 (![0, 1] : Fin 2 → Fin 2))
    (z : FVec Ideal S50000x40 .f32) : FVec Ideal S50000x40 .f32 :=
  subf z (broadcastInDim S50000x40 ![0, 1] hs
    (Host.log (broadcastInDim S50000x1 ![0] hb1
      (Host.reduceAdd (Host.exp z) (constant (F := Ideal) S_ .f32 0x00000000#32) hR' hu))))

/-- The whole-array computation of the launch. -/
def logSoftmaxOfRelu (hR' : S50000x40.ReducesTo [1] S50000) (hu : 0 < S_.numel)
    (hb0 : S_.BroadcastsInDim S50000 (![] : Fin 0 → Fin 1))
    (hb1 : S50000.BroadcastsInDim S50000x1 (![0] : Fin 1 → Fin 2))
    (hs : S50000x1.BroadcastsInDim S50000x40 (![0, 1] : Fin 2 → Fin 2))
    (hr : S1x40.BroadcastsInDim S50000x40 (![0, 1] : Fin 2 → Fin 2))
    (h0 : S_.BroadcastsInDim S50000x40 (![] : Fin 0 → Fin 2))
    (a : FVec Ideal S50000x40 .f32) (s : FVec Ideal S50000x1 .f32) (b : FVec Ideal S1x40 .f32) :
    FVec Ideal S50000x40 .f32 :=
  normalised hR' hu hb1 hs (shifted hR' hu hb0 hb1 hs (scaleBiasRelu hs hr h0 a s b))

theorem tiles_a : Tiles S1000x40 S50000x40 0 cfg3.N := by decide
theorem tiles_s : Tiles S1000x1 S50000x1 0 cfg3.N := by decide
theorem reduces_whole : S50000x40.Reduces [1] S50000 := by decide

/-- What the body stores at a block of rows is that block of the whole-array computation. -/
theorem pay_rows (hR' : S50000x40.ReducesTo [1] S50000) (hu : 0 < S_.numel)
    (hb0 : S_.BroadcastsInDim S50000 (![] : Fin 0 → Fin 1))
    (hb1 : S50000.BroadcastsInDim S50000x1 (![0] : Fin 1 → Fin 2))
    (hs : S50000x1.BroadcastsInDim S50000x40 (![0, 1] : Fin 2 → Fin 2))
    (hr : S1x40.BroadcastsInDim S50000x40 (![0, 1] : Fin 2 → Fin 2))
    (h0 : S_.BroadcastsInDim S50000x40 (![] : Fin 0 → Fin 2)) (t : Fin cfg3.N)
    (a : FVec Ideal S50000x40 .f32) (s : FVec Ideal S50000x1 .f32) (b : FVec Ideal S1x40 .f32) :
    k3_pay1 (F := Ideal) (block S1000x40 S50000x40 0 cfg3.N t a tiles_a) (block S1000x1 S50000x1 0 cfg3.N t s tiles_s) b
      = block S1000x40 S50000x40 0 cfg3.N t (logSoftmaxOfRelu hR' hu hb0 hb1 hs hr h0 a s b) tiles_a := by
  unfold k3_pay1 logSoftmaxOfRelu normalised shifted
  dsimp only
  -- the rectified block is the block of the rectified array
  have hv : maximumf (addf (mulf (shapeCast S1000x40 (block S1000x40 S50000x40 0 cfg3.N t a tiles_a) shapeCasts_S1000x40_S1000x40)
        (broadcastTo S1000x40 (shapeCast S1000x1 (block S1000x1 S50000x1 0 cfg3.N t s tiles_s) shapeCasts_S1000x1_S1000x1) broadcasts_S1000x1_S1000x40))
        (broadcastTo S1000x40 (shapeCast S1x40 b shapeCasts_S1x40_S1x40) broadcasts_S1x40_S1000x40))
        (broadcast S1000x40 (Scalar.ofBits (F := Ideal) .f32 0x00000000#32))
      = block S1000x40 S50000x40 0 cfg3.N t (scaleBiasRelu hs hr h0 a s b) tiles_a := by
    unfold scaleBiasRelu
    rw [shapeCast_self, shapeCast_self, shapeCast_self,
      Cert.RowBlock.column_rows (R := 1000) (M := 50000) (T := cfg3.N) (N := 40) tiles_s tiles_a t broadcasts_S1000x1_S1000x40 hs s,
      Cert.RowSpell.row_rows (R := 1000) (M := 50000) (T := cfg3.N) (N := 40) tiles_a t broadcasts_S1x40_S1000x40 hr b,
      Cert.RowBlock.splat_rows (R := 1000) (M := 50000) (T := cfg3.N) (N := 40) tiles_a t h0 0x00000000#32]
    rfl
  rw [hv]
  generalize scaleBiasRelu hs hr h0 a s b = v
  -- the row maxima, then the shift
  rw [Cert.RowReduce.rowmax_rows (R := 1000) (M := 50000) (T := cfg3.N) (N := 40) tiles_a tiles_s t reduces_S1000x40_S1000 (.inl rfl) rfl
      shapeCasts_S1000_S1000x1 hR' reduces_whole hu hb0 hb1 v,
    Cert.RowBlock.column_rows (R := 1000) (M := 50000) (T := cfg3.N) (N := 40) tiles_s tiles_a t broadcasts_S1000x1_S1000x40 hs,
    Cert.RowBlock.subf_rows (R := 1000) (M := 50000) (T := cfg3.N) (N := 40) tiles_a t]
  generalize subf v (broadcastInDim S50000x40 ![0, 1] hs (broadcastInDim S50000x1 ![0] hb1
      (maximumf (broadcastInDim S50000 ![] hb0 (constant (F := Ideal) S_ .f32 0xFF800000#32))
        (Host.reduce FloatOps.maximumf v (constant (F := Ideal) S_ .f32 0xFF800000#32) hR' hu)))) = z
  -- the exponentials' row sums, their logarithm, the last subtraction
  rw [Cert.RowBlock.exp_rows (R := 1000) (M := 50000) (T := cfg3.N) (N := 40) tiles_a t z,
    Cert.RowReduce.rowsum_rows (R := 1000) (M := 50000) (T := cfg3.N) (N := 40) tiles_a tiles_s t reduces_S1000x40_S1000 (.inl rfl) rfl
      shapeCasts_S1000_S1000x1 hR' reduces_whole hu hb1 (Host.exp z),
    Cert.RowReduce.log_rows (R := 1000) (M := 50000) (T := cfg3.N) (N := 1) tiles_s t,
    Cert.RowBlock.column_rows (R := 1000) (M := 50000) (T := cfg3.N) (N := 40) tiles_s tiles_a t broadcasts_S1000x1_S1000x40 hs]
  rfl

theorem hz : (![0, 0] : Fin 2 → Nat) = fun _ => 0 := funext fun a => by fin_cases a <;> rfl

/-- The printed index maps, decided over the grid: the row-blocked windows sit at block `(t, 0)`, the bias row at
    `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The block of the aggregated scores at point `t` is rows `1000 t …` of the array. -/
theorem blk_a (c : Dev nD) (t : Fin cfg3.N) :
    (iblk3 V c 0 t : Vec Ideal S1000x40 .f32) = block S1000x40 S50000x40 0 cfg3.N t (V c main_v45) tiles_a := by
  funext j
  show V c main_v45 (((cfg3.win 0).blk t).view.emb j) = V c main_v45 (tiles_a.idx t j)
  refine congrArg (V c main_v45) (funext fun a => Fin.ext ?_)
  obtain ⟨e0, e1, -⟩ := idx_facts t
  match a with
  | ⟨0, _⟩ => show win3_0.index t (0 : Fin 2) * 1000 + 1 * (j 0).val = t.val * 1000 + (j 0).val; rw [e0]; omega
  | ⟨1, _⟩ => show win3_0.index t (1 : Fin 2) * 40 + 1 * (j 1).val = (j 1).val; rw [e1]; omega

/-- The block of the scale column at point `t` is rows `1000 t …` of the column. -/
theorem blk_s (c : Dev nD) (t : Fin cfg3.N) :
    (iblk3 V c 1 t : Vec Ideal S1000x1 .f32) = block S1000x1 S50000x1 0 cfg3.N t (V c main_v46) tiles_s := by
  funext j
  show V c main_v46 (((cfg3.win 1).blk t).view.emb j) = V c main_v46 (tiles_s.idx t j)
  refine congrArg (V c main_v46) (funext fun a => Fin.ext ?_)
  obtain ⟨-, -, e0, e1, -⟩ := idx_facts t
  match a with
  | ⟨0, _⟩ => show win3_1.index t (0 : Fin 2) * 1000 + 1 * (j 0).val = t.val * 1000 + (j 0).val; rw [e0]; omega
  | ⟨1, _⟩ => show win3_1.index t (1 : Fin 2) * 1 + 1 * (j 1).val = (j 1).val; rw [e1]; omega

/-- The block of the bias row at every point is the whole row. -/
theorem blk_b (c : Dev nD) (t : Fin cfg3.N) : (iblk3 V c 2 t : Vec Ideal S1x40 .f32) = V c main_v47 := by
  funext j
  show V c main_v47 (((cfg3.win 2).blk t).view.emb j) = V c main_v47 j
  refine congrArg (V c main_v47) (funext fun a => Fin.ext ?_)
  obtain ⟨-, -, -, -, e0, e1, -⟩ := idx_facts t
  match a with
  | ⟨0, _⟩ => show win3_2.index t (0 : Fin 2) * 1 + 1 * (j 0).val = (j 0).val; rw [e0]; omega
  | ⟨1, _⟩ => show win3_2.index t (1 : Fin 2) * 40 + 1 * (j 1).val = (j 1).val; rw [e1]; omega

/-- Reading the output window's block `t` off an array takes rows `1000 t …` of it. -/
theorem read_y (t : Fin cfg3.N) (G : FVec Ideal S50000x40 .f32) :
    (((cfg3.win 3).blk t).view.read (Elt Ideal) G : Vec Ideal S1000x40 .f32) = block S1000x40 S50000x40 0 cfg3.N t G tiles_a := by
  funext j
  show G (((cfg3.win 3).blk t).view.emb j) = G (tiles_a.idx t j)
  refine congrArg G (funext fun a => Fin.ext ?_)
  obtain ⟨-, -, -, -, -, -, e0, e1⟩ := idx_facts t
  match a with
  | ⟨0, _⟩ => show win3_3.index t (0 : Fin 2) * 1000 + 1 * (j 0).val = t.val * 1000 + (j 0).val; rw [e0]; omega
  | ⟨1, _⟩ => show win3_3.index t (1 : Fin 2) * 40 + 1 * (j 1).val = (j 1).val; rw [e1]; omega

/-- What point `t` writes back is block `t` of the whole-array computation of the arrays the launch finds. -/
theorem flushed_eq (hR' : S50000x40.ReducesTo [1] S50000) (hu : 0 < S_.numel)
    (hb0 : S_.BroadcastsInDim S50000 (![] : Fin 0 → Fin 1))
    (hb1 : S50000.BroadcastsInDim S50000x1 (![0] : Fin 1 → Fin 2))
    (hs : S50000x1.BroadcastsInDim S50000x40 (![0, 1] : Fin 2 → Fin 2))
    (hr : S1x40.BroadcastsInDim S50000x40 (![0, 1] : Fin 2 → Fin 2))
    (h0 : S_.BroadcastsInDim S50000x40 (![] : Fin 0 → Fin 2)) (c : Dev nD) (t : Fin cfg3.N) :
    (dat3 V c).flushed 3 t
      = ((cfg3.win 3).blk t).view.read (Elt Ideal)
          (logSoftmaxOfRelu hR' hu hb0 hb1 hs hr h0 (V c main_v45) (V c main_v46) (V c main_v47)) := by
  show (cfg3.win 3).cut (grid3.coords t) ((dat3 V c).after 3 t) = _
  rw [after3_3]
  unfold out3_3
  rw [View.canon_unit_zero hz]
  simp only [View.ld_unit_zero (S := S1000x40) hz, View.ld_unit_zero (S := S1000x1) hz, View.ld_unit_zero (S := S1x40) hz]
  rw [blk_a V c t, blk_s V c t, blk_b V c t, pay_rows hR' hu hb0 hb1 hs hr h0 t, read_y t]
  rfl

/-- An index of the output array is in point `t`'s block iff its row is among rows `1000 t … 1000 t + 999`. -/
theorem mem_blk (t : Fin cfg3.N) (i : S50000x40.Idx) :
    i ∈ ((cfg3.win 3).blk t).view.set ↔ ∀ a : Fin 2, win3_3.index t a * S1000x40.size a ≤ (i a).val ∧ (i a).val < win3_3.index t a * S1000x40.size a + S1000x40.size a := by
  show i ∈ ((View.whole main_v48).slice (win3_3.rect t)).set ↔ _
  rw [View.set_slice_whole, Rect.mem_set_unit]
  exact Iff.rfl

/-- Every row lies in the block of its thousand. -/
theorem cover (i : S50000x40.Idx) : ∃ t : Fin cfg3.N, (cfg3.win 3).flush t = true ∧ i ∈ ((cfg3.win 3).blk t).view.set := by
  have hi0 : (i 0).val < 50000 := (i 0).isLt
  have hi1 : (i 1).val < 40 := (i 1).isLt
  have hN : cfg3.N = 50 := N_3
  refine ⟨⟨(i 0).val / 1000, by rw [hN]; omega⟩, flush3_3 _, ?_⟩
  rw [mem_blk]
  obtain ⟨-, -, -, -, -, -, e0, e1⟩ := idx_facts ⟨(i 0).val / 1000, by rw [hN]; omega⟩
  intro a
  match a with
  | ⟨0, _⟩ =>
    show win3_3.index _ (0 : Fin 2) * 1000 ≤ (i 0).val ∧ (i 0).val < win3_3.index _ (0 : Fin 2) * 1000 + 1000
    rw [e0]; show (i 0).val / 1000 * 1000 ≤ (i 0).val ∧ (i 0).val < (i 0).val / 1000 * 1000 + 1000; omega
  | ⟨1, _⟩ =>
    show win3_3.index _ (1 : Fin 2) * 40 ≤ (i 1).val ∧ (i 1).val < win3_3.index _ (1 : Fin 2) * 40 + 40
    rw [e1]; omega

/-- THE OUTPUT ARRAY after the launch: the whole-array computation of the arrays the launch finds. -/
theorem final (hR' : S50000x40.ReducesTo [1] S50000) (hu : 0 < S_.numel)
    (hb0 : S_.BroadcastsInDim S50000 (![] : Fin 0 → Fin 1))
    (hb1 : S50000.BroadcastsInDim S50000x1 (![0] : Fin 1 → Fin 2))
    (hs : S50000x1.BroadcastsInDim S50000x40 (![0, 1] : Fin 2 → Fin 2))
    (hr : S1x40.BroadcastsInDim S50000x40 (![0, 1] : Fin 2 → Fin 2))
    (h0 : S_.BroadcastsInDim S50000x40 (![] : Fin 0 → Fin 2)) (c : Dev nD) :
    (dat3 V c).arrAt 3 cfg3.N = logSoftmaxOfRelu hR' hu hb0 hb1 hs hr h0 (V c main_v45) (V c main_v46) (V c main_v47) :=
  (dat3 V c).arrAt_eq_of_cover 3 _ (fun t _ => flushed_eq V hR' hu hb0 hb1 hs hr h0 c t) cover

end Cert.KernelIdeal.Region3

end
-- ==== Proof.Bridge.lean ====
import proofs.«125506_j15659450761582_1_alg».proof.Proof.KernelRun
import proofs.«125506_j15659450761582_1_alg».proof.Proof.KernelHost
import proofs.«125506_j15659450761582_1_alg».proof.Proof.Region0
import proofs.«125506_j15659450761582_1_alg».proof.Proof.Region1
import proofs.«125506_j15659450761582_1_alg».proof.Proof.Region2
import proofs.«125506_j15659450761582_1_alg».proof.Proof.Region3
import proofs.«125506_j15659450761582_1_alg».proof.Proof.RefStages
import proofs.«125506_j15659450761582_1_alg».proof.Proof.LibRowSpell

set_option maxRecDepth 16384

noncomputable section

/-! # The kernel program and the reference, boundary by boundary

Both programs compute, for each of two layers, `rectify (D_in^(-1/2) · A · D_out^(-1/2) · (h W) + b)`, the second followed
by the log-softmax of each row. The kernel program does the products, the scaling by the degree factors, the bias,
the rectifier and the log-softmax in four launches over blocks of 1000 rows, and the degree counts and the
gather / scatter-add along the edges on the host; the reference does everything on the host. Here the buffer that
holds each intermediate result in the kernel program is shown equal to the one that holds it in the reference, in
program order: the two degree factors, then per layer the scaled product, the aggregated features, and the layer's
output. The host stretches are the same operations in both programs, so equal inputs give equal outputs for any
float family; a launch's output array is the whole-array computation the reference spells with host operations, on the
extended reals, where a product accumulated from zero is the host's product and a change of format is the identity. -/

namespace Cert.Bridge

open Cert.KernelIdeal Cert.KernelIdeal.Gen Cert.KernelIdeal.Host
open Cert.ReferenceIdeal.Stages (R1 R2 R3 R4 R5 R6 R7 R8)
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)
variable (m' : (ℓ : Loc Cert.ReferenceIdeal.nD Cert.ReferenceIdeal.τ Cert.ReferenceIdeal.sig) → Buf (Elt F) ℓ)

/-- The two launch memories hold the same argument arrays. -/
def Agree : Prop := ∀ c : Dev nD,
    m' ((c.tc : Thread Cert.ReferenceIdeal.nD Cert.ReferenceIdeal.τ).loc Cert.ReferenceIdeal.main_arg0) = m ((c.tc : Thread nD τ).loc main_arg0)
    ∧ m' ((c.tc : Thread Cert.ReferenceIdeal.nD Cert.ReferenceIdeal.τ).loc Cert.ReferenceIdeal.main_arg1) = m ((c.tc : Thread nD τ).loc main_arg1)
    ∧ m' ((c.tc : Thread Cert.ReferenceIdeal.nD Cert.ReferenceIdeal.τ).loc Cert.ReferenceIdeal.main_arg2) = m ((c.tc : Thread nD τ).loc main_arg2)
    ∧ m' ((c.tc : Thread Cert.ReferenceIdeal.nD Cert.ReferenceIdeal.τ).loc Cert.ReferenceIdeal.main_arg3) = m ((c.tc : Thread nD τ).loc main_arg3)
    ∧ m' ((c.tc : Thread Cert.ReferenceIdeal.nD Cert.ReferenceIdeal.τ).loc Cert.ReferenceIdeal.main_arg4) = m ((c.tc : Thread nD τ).loc main_arg4)
    ∧ m' ((c.tc : Thread Cert.ReferenceIdeal.nD Cert.ReferenceIdeal.τ).loc Cert.ReferenceIdeal.main_arg5) = m ((c.tc : Thread nD τ).loc main_arg5)
    ∧ m' ((c.tc : Thread Cert.ReferenceIdeal.nD Cert.ReferenceIdeal.τ).loc Cert.ReferenceIdeal.main_arg6) = m ((c.tc : Thread nD τ).loc main_arg6)

/-! ## The degree factors (any float family) -/

/-- `deg_out^(-1/2)` (zero where no edge leaves the node): the same operations of the same edge sources. -/
theorem inv_out (h : Agree m m') (c : Dev nD) :
    (W4 m ρ c (Proc.devRef .tc main_v12) : FVec F S50000 .f32) = R1 m' c (Proc.devRef .tc Cert.ReferenceIdeal.main_v12) := by
  unfold Cert.ReferenceIdeal.Stages.R1
  after_results_simp
  simp only [Cert.TypedRef.ofBuf_toBuf]
  simp only [TRef.ofBuf, TRef.toBuf, cast_eq]
  have e : launchContents m' c (Proc.devRef .tc Cert.ReferenceIdeal.main_arg1) = W0 m ρ c (Proc.devRef .tc main_arg1) := (h c).2.1
  rw [e]
  rfl

/-- `deg_in^(-1/2)`: the same operations of the same edge destinations. -/
theorem inv_in (h : Agree m m') (c : Dev nD) :
    (W4 m ρ c (Proc.devRef .tc main_v18) : FVec F S50000 .f32) = R1 m' c (Proc.devRef .tc Cert.ReferenceIdeal.main_v18) := by
  unfold Cert.ReferenceIdeal.Stages.R1
  after_results_simp
  simp only [Cert.TypedRef.ofBuf_toBuf]
  simp only [TRef.ofBuf, TRef.toBuf, cast_eq]
  have e : launchContents m' c (Proc.devRef .tc Cert.ReferenceIdeal.main_arg2) = W0 m ρ c (Proc.devRef .tc main_arg2) := (h c).2.2.1
  rw [e]
  rfl

/-- The reference computes the two factors a second time, from the same edges: the same arrays. -/
theorem inv_out_again (c : Dev nD) :
    R5 m' c (Proc.devRef .tc Cert.ReferenceIdeal.main_v52) = R1 m' c (Proc.devRef .tc Cert.ReferenceIdeal.main_v12) := by
  unfold Cert.ReferenceIdeal.Stages.R5 Cert.ReferenceIdeal.Stages.R1
  after_results_simp
  simp only [Cert.TypedRef.ofBuf_toBuf]
  simp only [TRef.ofBuf, TRef.toBuf, cast_eq]
  rw [Cert.ReferenceIdeal.Stages.R4_arg1]
theorem inv_in_again (c : Dev nD) :
    R5 m' c (Proc.devRef .tc Cert.ReferenceIdeal.main_v58) = R1 m' c (Proc.devRef .tc Cert.ReferenceIdeal.main_v18) := by
  unfold Cert.ReferenceIdeal.Stages.R5 Cert.ReferenceIdeal.Stages.R1
  after_results_simp
  simp only [Cert.TypedRef.ofBuf_toBuf]
  simp only [TRef.ofBuf, TRef.toBuf, cast_eq]
  rw [Cert.ReferenceIdeal.Stages.R4_arg2]

/-! ## The gather along the sources and the scatter-add into the destinations (any float family) -/

/-- First layer: equal scaled products give equal aggregated features. -/
theorem agg1 (h : Agree m m') (c : Dev nD)
    (hy : (W6 m ρ c (Proc.devRef .tc main_v20) : FVec F S50000x256 .f32) = R2 m' c (Proc.devRef .tc Cert.ReferenceIdeal.main_v22)) :
    (W7 m ρ c (Proc.devRef .tc main_v30) : FVec F S50000x256 .f32) = R3 m' c (Proc.devRef .tc Cert.ReferenceIdeal.main_v32) := by
  unfold Cert.ReferenceIdeal.Stages.R3
  show after hostOps1 (W6 m ρ c) (Proc.devRef .tc main_v30) = _
  after_results_simp
  rw [W6_arg1, W6_arg2, Cert.ReferenceIdeal.Stages.R2_arg1, Cert.ReferenceIdeal.Stages.R2_arg2, hy, (h c).2.1, (h c).2.2.1]
  rfl

/-- Second layer likewise. -/
theorem agg2 (h : Agree m m') (c : Dev nD)
    (hy : (W10 m ρ c (Proc.devRef .tc main_v35) : FVec F S50000x40 .f32) = R6 m' c (Proc.devRef .tc Cert.ReferenceIdeal.main_v62)) :
    (W11 m ρ c (Proc.devRef .tc main_v45) : FVec F S50000x40 .f32) = R7 m' c (Proc.devRef .tc Cert.ReferenceIdeal.main_v72) := by
  unfold Cert.ReferenceIdeal.Stages.R7
  show after hostOps3 (W10 m ρ c) (Proc.devRef .tc main_v45) = _
  after_results_simp
  rw [W10_arg1, W10_arg2, Cert.ReferenceIdeal.Stages.R6_arg1, Cert.ReferenceIdeal.Stages.R6_arg2, hy, (h c).2.1, (h c).2.2.1]
  rfl

end Cert.Bridge

/-! ## The launches (extended reals) -/

namespace Cert.Bridge

open Cert.KernelIdeal Cert.KernelIdeal.Gen Cert.KernelIdeal.Host
open Cert.ReferenceIdeal.Stages (R1 R2 R3 R4 R5 R6 R7 R8)
open Idealize.ShloMosaic Idealize.ShloMosaic.TcCoe Idealize.SL.Sem Idealize.ShloMosaic.StableHlo

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The first launch's output array is the reference's scaled product of the first layer. -/
theorem stage0 (h : Agree m m') (c : Dev nD) :
    (W6 m ρ c (Proc.devRef .tc main_v20) : FVec Ideal S50000x256 .f32) = R2 m' c (Proc.devRef .tc Cert.ReferenceIdeal.main_v22) := by
  have eK := (W6_arr m ρ c 3).trans (Cert.KernelIdeal.Region0.final (V5 m ρ) Cert.ReferenceIdeal.dot_S50000x512_S512x256_S50000x256_1_0_0_1_n_n rfl
    Cert.ReferenceIdeal.Gen.bcast_S50000x1_S50000x256_0_1 c)
  have e0 : V5 m ρ c main_arg0 = m' ((c.tc : Thread Cert.ReferenceIdeal.nD Cert.ReferenceIdeal.τ).loc Cert.ReferenceIdeal.main_arg0) := (W5_arg0 m ρ c).trans (h c).1.symm
  have e3 : V5 m ρ c main_arg3 = m' ((c.tc : Thread Cert.ReferenceIdeal.nD Cert.ReferenceIdeal.τ).loc Cert.ReferenceIdeal.main_arg3) := (W5_arg3 m ρ c).trans (h c).2.2.2.1.symm
  have e19 : V5 m ρ c main_v19
      = broadcastInDim Cert.ReferenceIdeal.S50000x1 ![0] Cert.ReferenceIdeal.Gen.bcast_S50000_S50000x1_0 (R1 m' c (Proc.devRef .tc Cert.ReferenceIdeal.main_v12)) := by
    rw [show V5 m ρ c main_v19 = _ from W5_v19 m ρ c, inv_out m ρ m' h c]
    exact Cert.RowSpell.column_spell _ _ _
  refine eK.trans ?_
  rw [e0, e3, e19, Cert.ReferenceIdeal.Stages.R2_v22, Cert.ReferenceIdeal.Stages.R1_arg0, Cert.ReferenceIdeal.Stages.R1_arg3]
  rfl

/-- The second launch's output array is the reference's first-layer output. -/
theorem stage1 (h : Agree m m') (c : Dev nD) :
    (W8 m ρ c (Proc.devRef .tc main_v33) : FVec Ideal S50000x256 .f32) = R4 m' c (Proc.devRef .tc Cert.ReferenceIdeal.main_v39) := by
  have eK := (W8_arr m ρ c 3).trans (Cert.KernelIdeal.Region1.final (V7 m ρ) Cert.ReferenceIdeal.Gen.bcast_S50000x1_S50000x256_0_1
    Cert.ReferenceIdeal.Gen.bcast_S1x256_S50000x256_0_1 Cert.ReferenceIdeal.Gen.bcast_S_S50000x256 c)
  have e30 : V7 m ρ c main_v30 = R3 m' c (Proc.devRef .tc Cert.ReferenceIdeal.main_v32) := agg1 m ρ m' h c (stage0 m ρ m' h c)
  have e31 : V7 m ρ c main_v31
      = broadcastInDim Cert.ReferenceIdeal.S50000x1 ![0] Cert.ReferenceIdeal.Gen.bcast_S50000_S50000x1_0 (R1 m' c (Proc.devRef .tc Cert.ReferenceIdeal.main_v18)) := by
    rw [show V7 m ρ c main_v31 = _ from W7_v31 m ρ c, W6_v18, inv_in m ρ m' h c]
    exact Cert.RowSpell.column_spell _ _ _
  have e32 : V7 m ρ c main_v32
      = broadcastInDim Cert.ReferenceIdeal.S1x256 ![1] Cert.ReferenceIdeal.Gen.bcast_S256_S1x256_1 (m' ((c.tc : Thread Cert.ReferenceIdeal.nD Cert.ReferenceIdeal.τ).loc Cert.ReferenceIdeal.main_arg4)) := by
    rw [show V7 m ρ c main_v32 = _ from W7_v32 m ρ c, W6_arg4, ← (h c).2.2.2.2.1]
    exact Cert.RowSpell.row_spell _ _ _
  refine eK.trans ?_
  rw [e30, e31, e32, Cert.ReferenceIdeal.Stages.R4_v39, Cert.ReferenceIdeal.Stages.R3_v18, Cert.ReferenceIdeal.Stages.R2_v18, Cert.ReferenceIdeal.Stages.R3_arg4]
  rfl

/-- The third launch's output array is the reference's scaled product of the second layer. -/
theorem stage2 (h : Agree m m') (c : Dev nD) :
    (W10 m ρ c (Proc.devRef .tc main_v35) : FVec Ideal S50000x40 .f32) = R6 m' c (Proc.devRef .tc Cert.ReferenceIdeal.main_v62) := by
  have eK := (W10_arr m ρ c 3).trans (Cert.KernelIdeal.Region2.final (V9 m ρ) Cert.ReferenceIdeal.dot_S50000x256_S256x40_S50000x40_1_0_0_1_n_n rfl
    Cert.ReferenceIdeal.Gen.bcast_S50000x1_S50000x40_0_1 c)
  have e33 : V9 m ρ c main_v33 = R4 m' c (Proc.devRef .tc Cert.ReferenceIdeal.main_v39) := (W9_v33 m ρ c).trans (stage1 m ρ m' h c)
  have e5 : V9 m ρ c main_arg5 = m' ((c.tc : Thread Cert.ReferenceIdeal.nD Cert.ReferenceIdeal.τ).loc Cert.ReferenceIdeal.main_arg5) := (W9_arg5 m ρ c).trans (h c).2.2.2.2.2.1.symm
  have e34 : V9 m ρ c main_v34
      = broadcastInDim Cert.ReferenceIdeal.S50000x1 ![0] Cert.ReferenceIdeal.Gen.bcast_S50000_S50000x1_0 (R1 m' c (Proc.devRef .tc Cert.ReferenceIdeal.main_v12)) := by
    rw [show V9 m ρ c main_v34 = _ from W9_v34 m ρ c, W8_v12, inv_out m ρ m' h c]
    exact Cert.RowSpell.column_spell _ _ _
  refine eK.trans ?_
  rw [e33, e5, e34, Cert.ReferenceIdeal.Stages.R6_v62, Cert.ReferenceIdeal.Stages.R5_v39, Cert.ReferenceIdeal.Stages.R5_arg5, inv_out_again]
  rfl

/-- The fourth launch's output array is the reference's result. -/
theorem stage3 (h : Agree m m') (c : Dev nD) :
    (W12 m ρ c (Proc.devRef .tc main_v48) : FVec Ideal S50000x40 .f32) = R8 m' c (Proc.devRef .tc Cert.ReferenceIdeal.main_v80) := by
  have eK := (W12_arr m ρ c 3).trans (Cert.KernelIdeal.Region3.final (V11 m ρ) Cert.ReferenceIdeal.Gen.reducesTo_S50000x40_S50000_d1 Cert.ReferenceIdeal.Gen.h_S_
    Cert.ReferenceIdeal.Gen.bcast_S_S50000 Cert.ReferenceIdeal.Gen.bcast_S50000_S50000x1_0 Cert.ReferenceIdeal.Gen.bcast_S50000x1_S50000x40_0_1
    Cert.ReferenceIdeal.Gen.bcast_S1x40_S50000x40_0_1 Cert.ReferenceIdeal.Gen.bcast_S_S50000x40 c)
  have e45 : V11 m ρ c main_v45 = R7 m' c (Proc.devRef .tc Cert.ReferenceIdeal.main_v72) := agg2 m ρ m' h c (stage2 m ρ m' h c)
  have e46 : V11 m ρ c main_v46
      = broadcastInDim Cert.ReferenceIdeal.S50000x1 ![0] Cert.ReferenceIdeal.Gen.bcast_S50000_S50000x1_0 (R1 m' c (Proc.devRef .tc Cert.ReferenceIdeal.main_v18)) := by
    rw [show V11 m ρ c main_v46 = _ from W11_v46 m ρ c, W10_v18, inv_in m ρ m' h c]
    exact Cert.RowSpell.column_spell _ _ _
  have e47 : V11 m ρ c main_v47
      = broadcastInDim Cert.ReferenceIdeal.S1x40 ![1] Cert.ReferenceIdeal.Gen.bcast_S40_S1x40_1 (m' ((c.tc : Thread Cert.ReferenceIdeal.nD Cert.ReferenceIdeal.τ).loc Cert.ReferenceIdeal.main_arg6)) := by
    rw [show V11 m ρ c main_v47 = _ from W11_v47 m ρ c, W10_arg6, ← (h c).2.2.2.2.2.2]
    exact Cert.RowSpell.row_spell _ _ _
  refine eK.trans ?_
  rw [e45, e46, e47, Cert.ReferenceIdeal.Stages.R8_v80]
  unfold Cert.ReferenceIdeal.Stages.shiftedScores Cert.ReferenceIdeal.Stages.scores
  rw [Cert.ReferenceIdeal.Stages.R7_v58, Cert.ReferenceIdeal.Stages.R6_v58, inv_in_again, Cert.ReferenceIdeal.Stages.R7_arg6]
  rfl

end Cert.Bridge

end
-- ==== Proof.lean ====
/- Two layers of a graph convolution followed by a log-softmax, against its host-only reference, on the extended reals.

   Each layer computes `rectify (D_in^(-1/2) · A · D_out^(-1/2) · (h W) + b)` for 50000 nodes and 800000 edges: the product
   with the weights, each node's row scaled by `deg_out^(-1/2)`; a gather of the rows along the edges' sources and a
   scatter-add into their destinations; each row scaled by `deg_in^(-1/2)`, the bias added, negatives clamped to zero. The
   second layer's rows then go through the log-softmax: the row minus its maximum, minus the logarithm of the sum of the
   exponentials. The kernel program runs the products and the row-wise steps as four launches over blocks of 1000 rows
   (with the product's operands narrowed to a shorter format, which on the extended reals is the identity) and the degree
   counts and the edge traffic as host operations; the reference runs everything as host operations.

   How the claims are met. The three runs: the kernel programs' are the generated frames; the reference's is its
   straight line of host operations read in eight stretches (`RefStages`). The idealization rewrote nothing, so the
   preserved-meaning claim is trivial. For the equality of results: the kernel's run is stated once more with the result
   buffer named (`KernelRun`); each launch's output array is one whole-array computation of the arrays it finds, because
   every step works inside a row and the row blocks tile the array (`Region0` … `Region3`); the buffers the launches
   and stretches pass to one another are followed through both programs and found equal pair by pair (`KernelHost`,
   `Bridge`), the last pair being the two results. No law of arithmetic beyond "a maximum with minus infinity is the
   other operand" and "a sum from zero is the sum" is needed, and no finiteness of the inputs. -/
import proofs.«125506_j15659450761582_1_alg».proof.Defs
import proofs.«125506_j15659450761582_1_alg».proof.Proof.Gen.Kernel
import proofs.«125506_j15659450761582_1_alg».proof.Proof.Gen.Kernel.Skeleton
import proofs.«125506_j15659450761582_1_alg».proof.Proof.Gen.Kernel.Launch
import proofs.«125506_j15659450761582_1_alg».proof.Proof.Gen.Kernel.Points
import proofs.«125506_j15659450761582_1_alg».proof.Proof.Gen.Kernel.Frame
import proofs.«125506_j15659450761582_1_alg».proof.Proof.Gen.KernelIdeal
import proofs.«125506_j15659450761582_1_alg».proof.Proof.Gen.KernelIdeal.Skeleton
import proofs.«125506_j15659450761582_1_alg».proof.Proof.Gen.KernelIdeal.Launch
import proofs.«125506_j15659450761582_1_alg».proof.Proof.Gen.KernelIdeal.Points
import proofs.«125506_j15659450761582_1_alg».proof.Proof.Gen.KernelIdeal.Frame
import proofs.«125506_j15659450761582_1_alg».proof.Proof.Gen.ReferenceIdeal
import proofs.«125506_j15659450761582_1_alg».proof.Proof.Gen.Pre_finite_inputs
import proofs.«125506_j15659450761582_1_alg».proof.Proof.KernelRun
import proofs.«125506_j15659450761582_1_alg».proof.Proof.RefStages
import proofs.«125506_j15659450761582_1_alg».proof.Proof.Bridge
import Idealize.ShloMosaic.Adequacy
import Idealize.ShloMosaic.Init

noncomputable section

namespace Cert.Proof

open Idealize.ShloMosaic Idealize.SL.Sem

/-- The kernel program as printed runs, its arguments unchanged. -/
theorem frame_kernel : Cert.frame_Kernel := fun m ρ _ => Cert.Kernel.Gen.frame m ρ

/-- The idealized kernel program runs, its arguments unchanged. -/
theorem frame_kernelIdeal : Cert.frame_KernelIdeal := fun m ρ _ => Cert.KernelIdeal.Gen.frame m ρ

/-- The reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.Stages.run_levels (F := Ideal) m ρ)

/-- The idealization rewrote no operation. -/
theorem preserves : Cert.preserves_Kernel_KernelIdeal := trivial

/-- From memories holding the same arguments both programs run and end with the same result array: the kernel
    program's result buffer at its last boundary's contents, which is the reference's last level's. -/
theorem algebraic : Cert.algebraic_KernelIdeal_ReferenceIdeal := by
  intro m ρ m' ρ' _ hagree
  refine ⟨fun c => Cert.KernelIdeal.Gen.W12 m ρ c (Proc.devRef .tc Cert.KernelIdeal.main_v48),
    Cert.KernelIdeal.GenP.run_named m ρ, ?_⟩
  exact (θ_run Cert.ReferenceIdeal.defs _ _).mono
    (fun _ h c => ⟨(h c).1.trans (Cert.Bridge.stage3 m ρ m' hagree c).symm, (h c).2⟩)
    (Cert.ReferenceIdeal.Stages.run_levels (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
